-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg7 : IVec S2x1600000 32) (main_v33 : IVec S_ 1) : IVec S_ 1 :=
  let main_c_12 : IVec S_ 32 := constantI S_ 32 0#32
  let main_v34 : IVec S2x1600000 32 := broadcastInDim S2x1600000 ![] bcast_S_S2x1600000 main_c_12
  let main_v35 : IVec S2x1600000 1 := cmpi .sge main_arg7 main_v34
  let main_c_13 : IVec S_ 32 := constantI S_ 32 100000#32
  let main_v36 : IVec S2x1600000 32 := broadcastInDim S2x1600000 ![] bcast_S_S2x1600000 main_c_13
  let main_v37 : IVec S2x1600000 1 := cmpi .slt main_arg7 main_v36
  let main_v38 : IVec S2x1600000 1 := andi main_v35 main_v37
  let main_c_14 : IVec S_ 1 := constantI S_ 1 1#1
  let main_v39 : IVec S_ 1 := (fun x v => Host.reduce IntOp.andi x v reducesTo_S2x1600000_S_d0_1 h_S_) main_v38 main_c_14
  let main_v40 : IVec S_ 1 := andi main_v33 main_v39
  main_v40

def fn_part1 {F : FTy → Type} [FloatOps F] (main_arg4 : FVec F S128 .f32) (main_arg5 : FVec F S128x128 .f32) (main_arg6 : FVec F S128 .f32) (main_arg7 : IVec S2x1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1 : Shape := ⟨1, ![1]⟩
abbrev S1x1 : Shape := ⟨2, ![1, 1]⟩
abbrev S1700000x128 : Shape := ⟨2, ![1700000, 128]⟩
abbrev S4000x128 : Shape := ⟨2, ![4000, 128]⟩
abbrev S4000x1 : Shape := ⟨2, ![4000, 1]⟩
abbrev S1x128 : Shape := ⟨2, ![1, 128]⟩

abbrev nBuf : Space → Nat
  | .hbm => 147
  | .vmem => 48
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1, .i32⟩
  | 61 => ⟨S_, .i32⟩
  | 62 => ⟨S1700000x1, .i32⟩
  | 63 => ⟨S1700000x1, .i1⟩
  | 64 => ⟨S1x1, .i32⟩
  | 65 => ⟨S1700000x1, .i32⟩
  | 66 => ⟨S1700000x1, .i1⟩
  | 67 => ⟨S1700000x1, .i1⟩
  | 68 => ⟨S_, .i1⟩
  | 69 => ⟨S1700000, .i1⟩
  | 70 => ⟨S1700000x128, .f32⟩
  | 71 => ⟨S1700000x128, .i1⟩
  | 72 => ⟨S_, .f32⟩
  | 73 => ⟨S1700000x128, .f32⟩
  | 74 => ⟨S1700000x128, .f32⟩
  | 75 => ⟨S1700000x1, .f32⟩
  | 76 => ⟨S1700000x128, .f32⟩
  | 77 => ⟨S_, .f32⟩
  | 78 => ⟨S100000x128, .f32⟩
  | 79 => ⟨S1700000x1, .i32⟩
  | 80 => ⟨S100000x128, .f32⟩
  | 81 => ⟨S1x128, .f32⟩
  | 82 => ⟨S100000x128, .f32⟩
  | 83 => ⟨S100000x128, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1, .i32⟩
  | 93 => ⟨S_, .i32⟩
  | 94 => ⟨S1700000x1, .i32⟩
  | 95 => ⟨S1700000x1, .i1⟩
  | 96 => ⟨S1x1, .i32⟩
  | 97 => ⟨S1700000x1, .i32⟩
  | 98 => ⟨S1700000x1, .i1⟩
  | 99 => ⟨S1700000x1, .i1⟩
  | 100 => ⟨S_, .i1⟩
  | 101 => ⟨S1700000, .i1⟩
  | 102 => ⟨S1700000x128, .f32⟩
  | 103 => ⟨S1700000x128, .i1⟩
  | 104 => ⟨S_, .f32⟩
  | 105 => ⟨S1700000x128, .f32⟩
  | 106 => ⟨S1700000x128, .f32⟩
  | 107 => ⟨S1700000x1, .f32⟩
  | 108 => ⟨S1700000x128, .f32⟩
  | 109 => ⟨S_, .f32⟩
  | 110 => ⟨S100000x128, .f32⟩
  | 111 => ⟨S1700000x1, .i32⟩
  | 112 => ⟨S100000x128, .f32⟩
  | 113 => ⟨S1x128, .f32⟩
  | 114 => ⟨S100000x128, .f32⟩
  | 115 => ⟨S100000x128, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1, .i32⟩
  | 125 => ⟨S_, .i32⟩
  | 126 => ⟨S1700000x1, .i32⟩
  | 127 => ⟨S1700000x1, .i1⟩
  | _ => ⟨S100000x128, .f32⟩

abbrev hbmTy0_1 (i : Nat) : BufTy := match i % 128 with
  | 0 => ⟨S1x1, .i32⟩
  | 1 => ⟨S1700000x1, .i32⟩
  | 2 => ⟨S1700000x1, .i1⟩
  | 3 => ⟨S1700000x1, .i1⟩
  | 4 => ⟨S_, .i1⟩
  | 5 => ⟨S1700000, .i1⟩
  | 6 => ⟨S1700000x128, .f32⟩
  | 7 => ⟨S1700000x128, .i1⟩
  | 8 => ⟨S_, .f32⟩
  | 9 => ⟨S1700000x128, .f32⟩
  | 10 => ⟨S1700000x128, .f32⟩
  | 11 => ⟨S1700000x1, .f32⟩
  | 12 => ⟨S1700000x128, .f32⟩
  | 13 => ⟨S_, .f32⟩
  | 14 => ⟨S100000x128, .f32⟩
  | 15 => ⟨S1700000x1, .i32⟩
  | 16 => ⟨S100000x128, .f32⟩
  | 17 => ⟨S1x128, .f32⟩
  | 18 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S4000x128, .f32⟩
  | .local _ .vmem, ⟨6, _⟩ => ⟨S4000x128, .f32⟩
  | .local _ .vmem, ⟨7, _⟩ => ⟨S4000x1, .f32⟩
  | .local _ .vmem, ⟨8, _⟩ => ⟨S4000x1, .f32⟩
  | .local _ .vmem, ⟨9, _⟩ => ⟨S4000x128, .f32⟩
  | .local _ .vmem, ⟨10, _⟩ => ⟨S4000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S5000x128, .f32⟩
  | .local _ .vmem, ⟨20, _⟩ => ⟨S5000x128, .f32⟩
  | .local _ .vmem, ⟨21, _⟩ => ⟨S4000x128, .f32⟩
  | .local _ .vmem, ⟨22, _⟩ => ⟨S4000x128, .f32⟩
  | .local _ .vmem, ⟨23, _⟩ => ⟨S4000x1, .f32⟩
  | .local _ .vmem, ⟨24, _⟩ => ⟨S4000x1, .f32⟩
  | .local _ .vmem, ⟨25, _⟩ => ⟨S4000x128, .f32⟩
  | .local _ .vmem, ⟨26, _⟩ => ⟨S4000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S5000x128, .f32⟩
  | .local _ .vmem, ⟨36, _⟩ => ⟨S5000x128, .f32⟩
  | .local _ .vmem, ⟨37, _⟩ => ⟨S4000x128, .f32⟩
  | .local _ .vmem, ⟨38, _⟩ => ⟨S4000x128, .f32⟩
  | .local _ .vmem, ⟨39, _⟩ => ⟨S4000x1, .f32⟩
  | .local _ .vmem, ⟨40, _⟩ => ⟨S4000x1, .f32⟩
  | .local _ .vmem, ⟨41, _⟩ => ⟨S4000x128, .f32⟩
  | .local _ .vmem, ⟨42, _⟩ => ⟨S4000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_8 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_call3_c : Ref sig .tc := ⟨.hbm, 116, rfl⟩
abbrev main_call3_v0 : Ref sig .tc := ⟨.hbm, 117, rfl⟩
abbrev main_call3_v1 : Ref sig .tc := ⟨.hbm, 118, rfl⟩
abbrev main_call3_c_0 : Ref sig .tc := ⟨.hbm, 119, rfl⟩
abbrev main_call3_v2 : Ref sig .tc := ⟨.hbm, 120, rfl⟩
abbrev main_call3_v3 : Ref sig .tc := ⟨.hbm, 121, rfl⟩
abbrev main_call3_v4 : Ref sig .tc := ⟨.hbm, 122, rfl⟩
abbrev main_call3_v5 : Ref sig .tc := ⟨.hbm, 123, rfl⟩
abbrev main_call3_c_1 : Ref sig .tc := ⟨.hbm, 124, rfl⟩
abbrev main_call3_c_2 : Ref sig .tc := ⟨.hbm, 125, rfl⟩
abbrev main_call3_v6 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_call3_v11 : Ref sig .tc := ⟨.hbm, 131, rfl⟩
abbrev main_call3_c_3 : Ref sig .tc := ⟨.hbm, 132, rfl⟩
abbrev main_call3_v12 : Ref sig .tc := ⟨.hbm, 133, rfl⟩
abbrev main_call3_v13 : Ref sig .tc := ⟨.hbm, 134, rfl⟩
abbrev main_call3_v14 : Ref sig .tc := ⟨.hbm, 135, rfl⟩
abbrev main_call3_cst : Ref sig .tc := ⟨.hbm, 136, rfl⟩
abbrev main_call3_v15 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_cst_9 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg2_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem2_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![425], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![425], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![425], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x128_0 : S1700000.BroadcastsInDim S1700000x128 (![0] : Fin 1 → Fin S1700000x128.rank)
  bcast_S_S1700000x128 : S_.BroadcastsInDim S1700000x128 (![] : Fin 0 → Fin S1700000x128.rank)
  shapeCasts_S1700000_S1700000x1 : S1700000.ShapeCasts S1700000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S1700000x128.size a
  hwx1_0 : ∀ i : grid1.Coords, EltTy.bits .f32 = 32 ∨ (Rect.block (s := S1700000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1700000x1.size a
  hwx1_1 : ∀ i : grid1.Coords, EltTy.bits .f32 = 32 ∨ (Rect.block (s := S1700000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S1700000x128.size a
  hwx1_2 : ∀ i : grid1.Coords, EltTy.bits .f32 = 32 ∨ (Rect.block (s := S1700000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S1700000x128.size a
  hwx4_0 : ∀ i : grid4.Coords, EltTy.bits .f32 = 32 ∨ (Rect.block (s := S1700000x128) S4000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S1700000x1.size a
  hwx4_1 : ∀ i : grid4.Coords, EltTy.bits .f32 = 32 ∨ (Rect.block (s := S1700000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x128.size a ≤ S1700000x128.size a
  hwx4_2 : ∀ i : grid4.Coords, EltTy.bits .f32 = 32 ∨ (Rect.block (s := S1700000x128) S4000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S1700000x128.size a
  hwx7_0 : ∀ i : grid7.Coords, EltTy.bits .f32 = 32 ∨ (Rect.block (s := S1700000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x1.size a ≤ S1700000x1.size a
  hwx7_1 : ∀ i : grid7.Coords, EltTy.bits .f32 = 32 ∨ (Rect.block (s := S1700000x1) S4000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S1700000x128.size a
  hwx7_2 : ∀ i : grid7.Coords, EltTy.bits .f32 = 32 ∨ (Rect.block (s := S1700000x128) S4000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg3) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v42) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S4000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v49) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v49) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v50) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v51) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v52) S4000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v53) S4000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v56) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v57) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v58) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x1600000, .i32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S100000, .i32⟩
  | 14 => ⟨S1700000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000, .i32⟩
  | 77 => ⟨S1700000, .i32⟩
  | 78 => ⟨S1700000, .i32⟩
  | 79 => ⟨S_, .f32⟩
  | 80 => ⟨S1700000, .f32⟩
  | 81 => ⟨S_, .f32⟩
  | 82 => ⟨S100000, .f32⟩
  | 83 => ⟨S1700000x1, .i32⟩
  | 84 => ⟨S100000, .f32⟩
  | 85 => ⟨S_, .f32⟩
  | 86 => ⟨S100000, .f32⟩
  | 87 => ⟨S100000, .i1⟩
  | 88 => ⟨S_, .f32⟩
  | 89 => ⟨S100000, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S1700000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x128, .f32⟩
  | 125 => ⟨S1700000x1, .f32⟩
  | 126 => ⟨S1700000x128, .f32⟩
  | 127 => ⟨S1700000x128, .f32⟩
  | _ => ⟨S100000x128, .f32⟩

abbrev hbmTy0_1 (i : Nat) : BufTy := match i % 128 with
  | 0 => ⟨S_, .f32⟩
  | 1 => ⟨S100000x128, .f32⟩
  | 2 => ⟨S1700000x1, .i32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v64 : Ref sig .tc := ⟨.hbm, 95, rfl⟩
abbrev main_c_15 : Ref sig .tc := ⟨.hbm, 96, rfl⟩
abbrev main_v65 : Ref sig .tc := ⟨.hbm, 97, rfl⟩
abbrev main_v66 : Ref sig .tc := ⟨.hbm, 98, rfl⟩
abbrev main_c_16 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_17 : Ref sig .tc := ⟨.hbm, 106, rfl⟩
abbrev main_v73 : Ref sig .tc := ⟨.hbm, 107, rfl⟩
abbrev main_v74 : Ref sig .tc := ⟨.hbm, 108, rfl⟩
abbrev main_c_18 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_c_20 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_call3_cst : Ref sig .tc := ⟨.hbm, 135, rfl⟩
abbrev main_call3_v0 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_22 : Ref sig .tc := ⟨.hbm, 142, rfl⟩
abbrev main_v102 : Ref sig .tc := ⟨.hbm, 143, rfl⟩
abbrev main_cst_23 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_24 : Ref sig .tc := ⟨.hbm, 148, rfl⟩
abbrev main_v106 : Ref sig .tc := ⟨.hbm, 149, rfl⟩
abbrev main_v107 : Ref sig .tc := ⟨.hbm, 150, rfl⟩
abbrev main_cst_25 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_26 : Ref sig .tc := ⟨.hbm, 155, rfl⟩
abbrev main_call4_v0 : Ref sig .tc := ⟨.hbm, 156, rfl⟩
abbrev main_call4_v1 : Ref sig .tc := ⟨.hbm, 157, rfl⟩
abbrev main_v111 : Ref sig .tc := ⟨.hbm, 158, rfl⟩
abbrev main_c_27 : Ref sig .tc := ⟨.hbm, 159, rfl⟩
abbrev main_v112 : Ref sig .tc := ⟨.hbm, 160, rfl⟩
abbrev main_v113 : Ref sig .tc := ⟨.hbm, 161, rfl⟩
abbrev main_c_28 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_29 : Ref sig .tc := ⟨.hbm, 169, rfl⟩
abbrev main_v120 : Ref sig .tc := ⟨.hbm, 170, rfl⟩
abbrev main_v121 : Ref sig .tc := ⟨.hbm, 171, rfl⟩
abbrev main_c_30 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_31 : Ref sig .tc := ⟨.hbm, 179, rfl⟩
abbrev main_v128 : Ref sig .tc := ⟨.hbm, 180, rfl⟩
abbrev main_v129 : Ref sig .tc := ⟨.hbm, 181, rfl⟩
abbrev main_c_32 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_cst_33 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibHostStretch.lean ====
/-
  Running a list of host operations in stretches.

  The contents after a list of operations is a fold over the list, so the contents after a concatenation are the
  second part's after the first part's; in particular the contents after the first n + k operations are the contents
  after the k operations that follow the first n, started from the contents after the first n. A buffer that no
  operation of a list writes keeps its contents through every prefix of the list.

  An operation of a module-local function reads and writes its buffers through a transport along the buffer's type;
  writing a value through it and reading it back gives the value.
-/
import Idealize.ShloMosaic.Lib.StableHlo.Run

noncomputable section

namespace Cert.GraphConv

open Idealize.ShloMosaic Idealize.ShloMosaic.StableHlo

variable {τ : Topo} {sig : RefSig} {Val : EltTy → Type}

/-- The contents after one list of operations and then another are the second's after the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The first n + k operations are the first n, then the k that follow them. -/
theorem after_take_add (l : List (HloOp τ sig Val)) (n k : Nat) (V : Valuation τ sig Val) :
    after (List.take (n + k) l) V = after (List.take k (List.drop n l)) (after (List.take n l) V) := by
  rw [List.take_add, after_append]

/-- The whole list is its first n operations, then the rest. -/
theorem after_take_drop (l : List (HloOp τ sig Val)) (n : Nat) (V : Valuation τ sig Val) :
    after l V = after (List.drop n l) (after (List.take n l) V) := by
  conv_lhs => rw [← List.take_append_drop n l]
  exact after_append _ _ _

/-- A buffer no operation of the list writes keeps its contents through every prefix of the list. -/
theorem prefix_keeps {b : DevRef τ sig} (l : List (HloOp τ sig Val)) (h : ∀ op ∈ l, b ∉ op.writes) (n : Nat)
    (V : Valuation τ sig Val) : after (List.take n l) V b = V b :=
  after_of_forall_not_mem _ _ fun op ho => h op (List.mem_of_mem_take ho)

/-- A value written to a typed reference's buffer and read back is the value. -/
theorem ofBuf_toBuf {T : BufTy} (x : TRef sig T) (v : T.Contents Val) : x.ofBuf (x.toBuf v) = v := by
  obtain ⟨r, rfl, h2, h3⟩ := x
  rfl

end Cert.GraphConv

end
-- ==== Proof.IndexRange.lean ====
import proofs.«426999_j59536836657839_1_alg».proof.Proof.Gen.KernelIdeal.Frame
import proofs.«426999_j59536836657839_1_alg».proof.Defs
import proofs.«426999_j59536836657839_1_alg».proof.Proof.Gen.Pre_finite_inputs
import Idealize.ShloMosaic.Lib.ReduceAll
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

/-- Every entry of a vector of 1700000 node indices is a node: between 0 and 99999 as a signed word. -/
def InRange (r : IVec S1700000 32) : Prop := ∀ e : S1700000.Idx, 0 ≤ (r e).toInt ∧ (r e).toInt < 100000

/-- The first row of the 2 × 1600000 edge array (the source node of every edge), followed by the 100000 self-loop
    indices 0, 1, …, 99999. -/
def sourcesWithLoops (ei : IVec S2x1600000 32) : IVec S1700000 32 :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- A word that compares signed at least 0 and signed below 100000 has its signed value in [0, 100000). -/
private theorem word_inRange (w : BitVec 32) (h0 : IntOp.cmpi .sge w 0#32 = 1#1) (h1 : IntOp.cmpi .slt w 100000#32 = 1#1) :
    0 ≤ w.toInt ∧ w.toInt < 100000 := by
  unfold IntOp.cmpi at h0 h1
  rw [Predicate.ofBool_eq_one_iff] at h0 h1
  simp only [BitVec.slt, BitVec.sle, decide_eq_true_eq] at h0 h1
  have e0 : (0#32).toInt = ((0 : ℕ) : ℤ) := Predicate.toInt_ofNat_small 0 (by norm_num)
  have e1 : (100000#32).toInt = ((100000 : ℕ) : ℤ) := Predicate.toInt_ofNat_small 100000 (by norm_num)
  rw [e0] at h0
  rw [e1] at h1
  exact ⟨by exact_mod_cast h0, by exact_mod_cast h1⟩

/-- At a position below 1600000 the vector reads entry (0, position) of the edge array: the concatenation's first piece,
    the reshape of a 1 × 1600000 row to a vector (same row-major position), the row at offset (0, 0). -/
private theorem sourcesWithLoops_left (ei : IVec S2x1600000 32) (k : Fin 1700000) (hk : k.val < 1600000) :
    sourcesWithLoops ei (ix1 k) = ei (ix2 (0 : Fin 2) (⟨k.val, hk⟩ : Fin 1600000)) := by
  unfold sourcesWithLoops
  refine (concatenate_pair_apply_left _ _ _ concatenates_S1600000_S100000_S1700000_d0 (ix1 k) rfl
    (ix1 (⟨k.val, hk⟩ : Fin 1600000)) ?_).trans ?_
  · intro b
    match b with
    | ⟨0, _⟩ => rfl
  refine (shapeCast_apply _ shapeCasts_S1x1600000_S1600000 (ix1 (⟨k.val, hk⟩ : Fin 1600000))
    (ix2 (0 : Fin 1) (⟨k.val, hk⟩ : Fin 1600000)) ?_).trans ?_
  · rw [Shape.rowMajor_val_two, Shape.rowMajor_val_one]
    show 0 * 1600000 + k.val = k.val
    omega
  refine extractStridedSlice_apply _ _ _ _ (ix2 (0 : Fin 2) (⟨k.val, hk⟩ : Fin 1600000)) fun a => ?_
  match a with
  | ⟨0, _⟩ => rfl
  | ⟨1, _⟩ =>
    show k.val = 0 + k.val
    omega

/-- At a position from 1600000 on the vector reads the self-loop index: the position less 1600000. -/
private theorem sourcesWithLoops_right (ei : IVec S2x1600000 32) (k : Fin 1700000) (hk : 1600000 ≤ k.val) :
    sourcesWithLoops ei (ix1 k) = BitVec.ofNat 32 (k.val - 1600000) := by
  have hlt : k.val - 1600000 < 100000 := by have := k.isLt; omega
  unfold sourcesWithLoops
  refine (concatenate_pair_apply_right _ _ _ concatenates_S1600000_S100000_S1700000_d0 (ix1 k) rfl rfl
    (ix1 (⟨k.val - 1600000, hlt⟩ : Fin 100000)) ?_ ?_).trans rfl
  · intro b hb
    exfalso
    apply hb
    apply Fin.ext
    have hb1 : b.val < 1 := b.isLt
    show b.val = 0
    omega
  · show k.val - 1600000 + 1600000 = k.val
    omega

/-- If every entry of the edge array is a node, so is every entry of its first row followed by the self loops. -/
theorem sourcesWithLoops_inRange (ei : IVec S2x1600000 32)
    (hei : ∀ i : S2x1600000.Idx, 0 ≤ (ei i).toInt ∧ (ei i).toInt < 100000) : InRange (sourcesWithLoops ei) := by
  unfold InRange
  intro e
  obtain ⟨k, rfl⟩ : ∃ k : Fin 1700000, e = ix1 k := ⟨e 0, eq_ix1 e⟩
  by_cases hk : k.val < 1600000
  · rw [sourcesWithLoops_left ei k hk]
    exact hei _
  · have hlt := k.isLt
    rw [sourcesWithLoops_right ei k (by omega), Predicate.toInt_ofNat_small _ (by omega)]
    constructor <;> omega

variable [hPre : Cert.Pre_finite_inputs.Facts]

/-- The predicate's last conjunct, as a function of the edge array and of the conjunction before it: when the result
    is 1, so is the `and` over the whole edge array of the entrywise (0 ≤ entry) and (entry < 100000), so every entry
    passes both comparisons. -/
private theorem part2_inRange (a7 : IVec Cert.Pre_finite_inputs.S2x1600000 32) (v33 : IVec Cert.Pre_finite_inputs.S_ 1)
    (h : Cert.Pre_finite_inputs.fn_part2 (F := Ideal) a7 v33 ix0 = 1#1) (i : Cert.Pre_finite_inputs.S2x1600000.Idx) :
    0 ≤ (a7 i).toInt ∧ (a7 i).toInt < 100000 := by
  haveI : Subsingleton Cert.Pre_finite_inputs.S_.Idx := ⟨fun a b => funext fun d => d.elim0⟩
  dsimp only [Cert.Pre_finite_inputs.fn_part2] at h
  have h2 := (IntOp.andi_eq_one.1 h).2
  have h3 := Host.reduce_andi_all _ _ _ _ ix0 h2 i
  obtain ⟨h0, h1⟩ := IntOp.andi_eq_one.1 h3
  exact word_inRange (a7 i) h0 h1

/-- The precondition's last conjunct, read entry by entry: every entry of the edge array is a node. -/
theorem edges_are_nodes (m : (ℓ : Loc nD τ sig) → Buf (Elt Ideal) ℓ) (hpre : Cert.Pre_KernelIdeal m) (c : Dev nD)
    (i : S2x1600000.Idx) :
    0 ≤ ((m ((c.tc : Thread nD τ).loc main_arg7) : IVec S2x1600000 32) i).toInt
      ∧ ((m ((c.tc : Thread nD τ).loc main_arg7) : IVec S2x1600000 32) i).toInt < 100000 := by
  have e := congrFun (hpre c) ix0
  exact part2_inRange _ _ e i

end Cert.Gcn

end
-- ==== Proof.TakeStretch.lean ====
import proofs.«426999_j59536836657839_1_alg».proof.Proof.Gen.KernelIdeal.Frame
import proofs.«426999_j59536836657839_1_alg».proof.Proof.LibHostStretch
import Idealize.ShloMosaic.Lib.StableHlo.Run
import Idealize.ShloMosaic.Lib.StableHlo.Predicate
import Idealize.ShloMosaic.Lib.ValueIdx
import Idealize.ShloMosaic.Lib.Pipeline.Value

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

variable {F : FTy → Type} [FloatOps F]

/-- Every entry of a vector of 1700000 node indices is a node: between 0 and 99999 as a signed word. -/
def InRangeT (r : IVec S1700000 32) : Prop := ∀ e : S1700000.Idx, 0 ≤ (r e).toInt ∧ (r e).toInt < 100000

/-- The indices as a column, a negative one first moved up by 100000. -/
def wrapRows (r : IVec S1700000 32) : IVec S1700000x1 32 :=
  broadcastInDim S1700000x1 ![0] bcast_S1700000_S1700000x1_0
    (select (cmpi .slt r (broadcastInDim S1700000 ![] bcast_S_S1700000 (constantI S_ 32 0#32)))
      (addi r (broadcastInDim S1700000 ![] bcast_S_S1700000 (constantI S_ 32 100000#32))) r)

/-! ### One word -/

/-- A word whose signed value is not negative is not below zero, so the wrap keeps it. -/
theorem wrap_word (w : BitVec 32) (h0 : 0 ≤ w.toInt) :
    Scalar.select (IntOp.cmpi .slt w 0#32) (IntOp.addi w 100000#32) w = w := by
  have hc : IntOp.cmpi .slt w 0#32 = 0#1 := by
    unfold IntOp.cmpi
    have : w.slt 0#32 = false := by
      simp only [BitVec.slt, BitVec.toInt_zero, decide_eq_false_iff_not, not_lt]; exact h0
    rw [this]; rfl
  rw [hc, select_zero]

/-- A word whose signed value is a node index passes both bounds tests. -/
theorem inb_word (w : BitVec 32) (h0 : 0 ≤ w.toInt) (h1 : w.toInt < 100000) :
    IntOp.andi (IntOp.cmpi .sge w 0#32) (IntOp.cmpi .sle w 99999#32) = 1#1 := by
  have ha : IntOp.cmpi .sge w 0#32 = 1#1 := by
    unfold IntOp.cmpi
    have : (0#32 : BitVec 32).sle w = true := by
      simp only [BitVec.sle, BitVec.toInt_zero, decide_eq_true_eq]; exact h0
    rw [this]; rfl
  have hb : IntOp.cmpi .sle w 99999#32 = 1#1 := by
    unfold IntOp.cmpi
    have h9 : (99999#32 : BitVec 32).toInt = 99999 := by decide
    have : w.sle 99999#32 = true := by
      simp only [BitVec.sle, h9, decide_eq_true_eq]; omega
    rw [this]; rfl
  rw [ha, hb]; decide

/-! ### The column of indices, the mask -/

/-- Every entry of the wrapped column is an entry of the vector, kept by the wrap: a node index. -/
theorem wrapRows_inRange (r : IVec S1700000 32) (hr : InRangeT r) (i : S1700000x1.Idx) :
    0 ≤ (wrapRows r i).toInt ∧ (wrapRows r i).toInt < 100000 := by
  obtain ⟨e, he⟩ : ∃ e, wrapRows r i
      = Scalar.select (IntOp.cmpi .slt (r e) 0#32) (IntOp.addi (r e) 100000#32) (r e) := ⟨_, rfl⟩
  rw [he, wrap_word _ (hr e).1]; exact hr e

/-- A left fold of `and` from 1 over entries that are all 1 is 1. -/
theorem foldl_andi_ones {ι : Type} (l : List ι) (x : ι → BitVec 1) (hx : ∀ i, x i = 1#1) :
    l.foldl (fun r i => IntOp.andi r (x i)) 1#1 = 1#1 := by
  induction l with
  | nil => rfl
  | cons a l ih =>
    have h11 : IntOp.andi 1#1 1#1 = 1#1 := by decide
    rw [List.foldl_cons, hx a, h11]; exact ih

/-- The in-bounds mask, reduced over the column's one-entry axis and laid over the 128 columns, is 1 everywhere. -/
theorem mask_one (r : IVec S1700000 32) (hr : InRangeT r) (j : S1700000x128.Idx) :
    broadcastInDim S1700000x128 ![0] bcast_S1700000_S1700000x128_0
      (Host.reduce IntOp.andi
        (andi (cmpi .sge (wrapRows r) (broadcastInDim S1700000x1 ![] bcast_S_S1700000x1 (constantI S_ 32 0#32)))
          (cmpi .sle (wrapRows r) (broadcastInDim S1700000x1 ![0, 1] bcast_S1x1_S1700000x1_0_1
            (broadcastInDim S1x1 ![1] bcast_S1_S1x1_1 (constantI S1 32 99999#32)))))
        (constantI S_ 1 1#1) reducesTo_S1700000x1_S1700000_d1 h_S_) j = 1#1 := by
  unfold broadcastInDim
  rw [Host.reduce_eq_foldl]
  exact foldl_andi_ones _ _ fun i => inb_word _ (wrapRows_inRange r hr i).1 (wrapRows_inRange r hr i).2

/-- With the mask 1 everywhere the fill value is never chosen: the select is the rows gathered. -/
theorem take_select (r : IVec S1700000 32) (hr : InRangeT r) (h : (⟨S100000x128, .f32⟩ : BufTy).Contents (Elt F)) :
    select
        (broadcastInDim S1700000x128 ![0] bcast_S1700000_S1700000x128_0
          (Host.reduce IntOp.andi
            (andi (cmpi .sge (wrapRows r) (broadcastInDim S1700000x1 ![] bcast_S_S1700000x1 (constantI S_ 32 0#32)))
              (cmpi .sle (wrapRows r) (broadcastInDim S1700000x1 ![0, 1] bcast_S1x1_S1700000x1_0_1
                (broadcastInDim S1x1 ![1] bcast_S1_S1x1_1 (constantI S1 32 99999#32)))))
            (constantI S_ 1 1#1) reducesTo_S1700000x1_S1700000_d1 h_S_))
        (Host.gather gather_S100000x128_S1700000x1_S1700000x128_1_0_n_n_0_1_1128 h (wrapRows r))
        (broadcastInDim S1700000x128 ![] bcast_S_S1700000x128 (constant S_ .f32 0x7FC00000#32))
      = Host.gather gather_S100000x128_S1700000x1_S1700000x128_1_0_n_n_0_1_1128 h (wrapRows r) := by
  funext j
  rw [select_apply, mask_one r hr j, select_one]

/-! ### The stretch -/

/-- The same through buffers: the indices and the array read from their buffers, the result written to its buffer. -/
theorem take_core (x5 : TRef sig ⟨S1700000, .i32⟩) (x32 : TRef sig ⟨S100000x128, .f32⟩) (y : TRef sig ⟨S1700000x128, .f32⟩)
    (v5 : x5.ref.ty.Contents (Elt F)) (v32 : x32.ref.ty.Contents (Elt F)) (hr : InRangeT (x5.ofBuf v5)) :
    y.toBuf (select
        (broadcastInDim S1700000x128 ![0] bcast_S1700000_S1700000x128_0
          (Host.reduce IntOp.andi
            (andi (cmpi .sge (wrapRows (x5.ofBuf v5)) (broadcastInDim S1700000x1 ![] bcast_S_S1700000x1 (constantI S_ 32 0#32)))
              (cmpi .sle (wrapRows (x5.ofBuf v5)) (broadcastInDim S1700000x1 ![0, 1] bcast_S1x1_S1700000x1_0_1
                (broadcastInDim S1x1 ![1] bcast_S1_S1x1_1 (constantI S1 32 99999#32)))))
            (constantI S_ 1 1#1) reducesTo_S1700000x1_S1700000_d1 h_S_))
        (Host.gather gather_S100000x128_S1700000x1_S1700000x128_1_0_n_n_0_1_1128 (x32.ofBuf v32) (wrapRows (x5.ofBuf v5)))
        (broadcastInDim S1700000x128 ![] bcast_S_S1700000x128 (constant S_ .f32 0x7FC00000#32)))
      = y.toBuf (Host.gather gather_S100000x128_S1700000x1_S1700000x128_1_0_n_n_0_1_1128 (x32.ofBuf v32)
          (wrapRows (x5.ofBuf v5))) :=
  congrArg _ (take_select _ hr _)

set_option maxHeartbeats 4000000 in
/-- Rows of a 100000 × 128 array taken at indices that are all nodes: the in-bounds test holds at every index, so the
    fill value is never chosen and the result is the rows gathered. First layer. -/
theorem take_rows1 (W : Valuation τ sig (Elt F)) (hr : InRangeT (W (Proc.devRef .tc main_v5))) :
    StableHlo.after hostOps1 W (Proc.devRef .tc main_v33)
      = Host.gather gather_S100000x128_S1700000x1_S1700000x128_1_0_n_n_0_1_1128 (W (Proc.devRef .tc main_v32))
          (wrapRows (W (Proc.devRef .tc main_v5))) := by
  after_results_simp
  simp only [Cert.GraphConv.ofBuf_toBuf]
  refine (take_core _ _ _ _ _ ?_).trans ?_
  · exact hr
  · rfl

set_option maxHeartbeats 4000000 in
/-- The same, second layer. -/
theorem take_rows2 (W : Valuation τ sig (Elt F)) (hr : InRangeT (W (Proc.devRef .tc main_v5))) :
    StableHlo.after hostOps4 W (Proc.devRef .tc main_v42)
      = Host.gather gather_S100000x128_S1700000x1_S1700000x128_1_0_n_n_0_1_1128 (W (Proc.devRef .tc main_v41))
          (wrapRows (W (Proc.devRef .tc main_v5))) := by
  after_results_simp
  simp only [Cert.GraphConv.ofBuf_toBuf]
  refine (take_core _ _ _ _ _ ?_).trans ?_
  · exact hr
  · rfl

set_option maxHeartbeats 4000000 in
/-- The same, third layer. -/
theorem take_rows3 (W : Valuation τ sig (Elt F)) (hr : InRangeT (W (Proc.devRef .tc main_v5))) :
    StableHlo.after hostOps7 W (Proc.devRef .tc main_v51)
      = Host.gather gather_S100000x128_S1700000x1_S1700000x128_1_0_n_n_0_1_1128 (W (Proc.devRef .tc main_v50))
          (wrapRows (W (Proc.devRef .tc main_v5))) := by
  after_results_simp
  simp only [Cert.GraphConv.ofBuf_toBuf]
  refine (take_core _ _ _ _ _ ?_).trans ?_
  · exact hr
  · rfl

end Cert.Gcn

end
-- ==== Proof.RegionMatmul.lean ====
import proofs.«426999_j59536836657839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

/-- Entry (r, q) of the product of a 100000 × 128 array with a 128 × 128 array over the extended reals: row r of the first
    against column q of the second, summed over the 128 shared coordinates. -/
def rowsByCols (x : S100000x128.Idx → EReal) (w : S128x128.Idx → EReal) : S100000x128.Idx → EReal :=
  fun i => ∑ k : Fin 128, x (ix2 (i 0) k) * w (ix2 k (i 1))

/-- The offsets of a whole-block rectangle are all zero. -/
theorem zeroOffsets : (![0, 0] : Fin 2 → Nat) = fun _ => 0 := funext fun a => by fin_cases a <;> rfl

/-- The left operand's index for result entry i and contraction index q has row coordinate the row of i. -/
theorem lhsIdx_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and column coordinate the contraction coordinate. -/
theorem lhsIdx_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's index has row coordinate the contraction coordinate … -/
theorem rhsIdx_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and column coordinate the column of i. -/
theorem rhsIdx_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry j of the 5000 × 128 block: row (j 0) of the left block against
    column (j 1) of the right one, summed over the 128 shared coordinates. The two roundings to bf16 are the identity on
    extended reals. -/
theorem blockProduct_apply (x0 : Vec Ideal S5000x128 .f32) (x1 : Vec Ideal S128x128 .f32) (j : S5000x128.Idx) :
    (matmul dot_S5000x128_S128x128_S5000x128_1_0_0_1_n_n none (truncf .bf16 x0 bitsLt_bf16_f32) (truncf .bf16 x1 bitsLt_bf16_f32)
      (constant S5000x128 .f32 0x00000000#32) : FVec Ideal S5000x128 .f32) j
      = ∑ k : Fin 128, x0 (ix2 (j 0) k) * x1 (ix2 k (j 1)) := by
  refine (Ideal.matmul_constant_zero_apply dot_S5000x128_S128x128_S5000x128_1_0_0_1_n_n none _ _ j).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = ix2 (j 0) k := funext fun a => Fin.ext (by
    match a with
    | ⟨0, _⟩ => exact lhsIdx_row _ _
    | ⟨1, _⟩ => exact (lhsIdx_col _ _).trans hk)
  have er : dot_S5000x128_S128x128_S5000x128_1_0_0_1_n_n.rhsIdx j ((contrEquiv1 dot_S5000x128_S128x128_S5000x128_1_0_0_1_n_n 128 rfl rfl).symm k) = ix2 k (j 1) := funext fun a => Fin.ext (by
    match a with
    | ⟨0, _⟩ => exact (rhsIdx_row _ _).trans hk
    | ⟨1, _⟩ => exact rhsIdx_col _ _)
  rw [truncf_apply, truncf_apply, el, er]
  rfl

/-- Region 0's stored value at an entry of the block. -/
theorem k0_pay1_apply (x0 : Vec Ideal S5000x128 .f32) (x1 : Vec Ideal S128x128 .f32) (j : S5000x128.Idx) :
    k0_pay1 x0 x1 j = ∑ k : Fin 128, x0 (ix2 (j 0) k) * x1 (ix2 k (j 1)) :=
  blockProduct_apply x0 x1 j

/-- Region 3's stored value at an entry of the block (its first operation recasts the left block to its own shape). -/
theorem k3_pay1_apply (x0 : Vec Ideal S5000x128 .f32) (x1 : Vec Ideal S128x128 .f32) (j : S5000x128.Idx) :
    k3_pay1 x0 x1 j = ∑ k : Fin 128, x0 (ix2 (j 0) k) * x1 (ix2 k (j 1)) := by
  unfold k3_pay1
  rw [shapeCast_self]
  exact blockProduct_apply x0 x1 j

/-- Region 6's stored value at an entry of the block (its first operation recasts the left block to its own shape). -/
theorem k6_pay1_apply (x0 : Vec Ideal S5000x128 .f32) (x1 : Vec Ideal S128x128 .f32) (j : S5000x128.Idx) :
    k6_pay1 x0 x1 j = ∑ k : Fin 128, x0 (ix2 (j 0) k) * x1 (ix2 k (j 1)) := by
  unfold k6_pay1
  rw [shapeCast_self]
  exact blockProduct_apply x0 x1 j

/-- Reading the blocks through their positions in the arrays: when the left block's entry (p, k) is the first array's
    entry (row of the result entry, k) and the right block's entry (k, q) is the second array's entry (k, column of the
    result entry), the block's row-by-column sum at (p, q) is the arrays' product at the result entry. -/
theorem blockSum_eq_rowsByCols (X : S100000x128.Idx → EReal) (W : S128x128.Idx → EReal)
    (f0 : S5000x128.Idx → S100000x128.Idx) (f1 : S128x128.Idx → S128x128.Idx) (f2 : S5000x128.Idx → S100000x128.Idx)
    (j : S5000x128.Idx)
    (h0 : ∀ k : Fin 128, f0 (ix2 (j 0) k) = ix2 (f2 j 0) k)
    (h1 : ∀ k : Fin 128, f1 (ix2 k (j 1)) = ix2 k (f2 j 1)) :
    ∑ k : Fin 128, X (f0 (ix2 (j 0) k)) * W (f1 (ix2 k (j 1))) = rowsByCols X W (f2 j) :=
  Finset.sum_congr rfl fun k _ => by rw [h0, h1]; rfl

variable (V : (c : Dev nD) → (b : Ref sig .tc) → Buf (Elt Ideal) ((c : Thread nD τ).loc b))

/-! ## Region 0 -/

/-- Region 0's block indices at grid point t: the two row-block windows sit at block row t, the 128 × 128 window at
    block (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the product of the two input arrays as the region found them: entry
    (p, q) of the block is row 5000 t + p of the first array against column q of the second. -/
theorem flushed0_eq (c : Dev nD) (t : Fin cfg0.N) :
    (dat0 (F := Ideal) V c).flushed 2 t
      = ((cfg0.win 2).blk t).view.read (Elt Ideal) (rowsByCols (V c main_arg0) (V c main_arg1)) := by
  show (cfg0.win 2).cut (grid0.coords t) ((dat0 (F := Ideal) V c).after 2 t) = _
  rw [after0_2]
  unfold out0_2
  rw [View.canon_unit_zero zeroOffsets]
  simp only [View.ld_unit_zero (S := S5000x128) zeroOffsets, View.ld_unit_zero (S := S128x128) zeroOffsets]
  obtain ⟨e0, e1, e2, e3, e4, e5⟩ := blockIndex0 t
  funext j
  refine (k0_pay1_apply _ _ j).trans ?_
  have h0 : ∀ k : Fin 128, ((cfg0.win 0).blk t).view.emb (ix2 (j 0) k) = ix2 ((((cfg0.win 2).blk t).view.emb j) 0) k := fun k => by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ∀ k : Fin 128, ((cfg0.win 1).blk t).view.emb (ix2 k (j 1)) = ix2 k ((((cfg0.win 2).blk t).view.emb j) 1) := fun k => by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact blockSum_eq_rowsByCols (V c main_arg0) (V c main_arg1) ((cfg0.win 0).blk t).view.emb ((cfg0.win 1).blk t).view.emb
    ((cfg0.win 2).blk t).view.emb j h0 h1

/-- An index of the result array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The twenty row blocks tile the result array: row r lies in the block of point r / 5000, and every block spans all
    128 columns. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := blockIndex0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem region0_final (c : Dev nD) :
    (dat0 (F := Ideal) V c).arrAt 2 cfg0.N = rowsByCols (V c main_arg0) (V c main_arg1) :=
  (dat0 (F := Ideal) V c).arrAt_eq_of_cover 2 (rowsByCols (V c main_arg0) (V c main_arg1)) (fun t _ => flushed0_eq V c t) cover0

/-! ## Region 3 -/

/-- Region 3's block indices at grid point t: the two row-block windows sit at block row t, the 128 × 128 window at
    block (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point t writes back is block t of the product of the two input arrays as the region found them: entry
    (p, q) of the block is row 5000 t + p of the first array against column q of the second. -/
theorem flushed3_eq (c : Dev nD) (t : Fin cfg3.N) :
    (dat3 (F := Ideal) V c).flushed 2 t
      = ((cfg3.win 2).blk t).view.read (Elt Ideal) (rowsByCols (V c main_v40) (V c main_arg3)) := by
  show (cfg3.win 2).cut (grid3.coords t) ((dat3 (F := Ideal) V c).after 2 t) = _
  rw [after3_2]
  unfold out3_2
  rw [View.canon_unit_zero zeroOffsets]
  simp only [View.ld_unit_zero (S := S5000x128) zeroOffsets, View.ld_unit_zero (S := S128x128) zeroOffsets]
  obtain ⟨e0, e1, e2, e3, e4, e5⟩ := blockIndex3 t
  funext j
  refine (k3_pay1_apply _ _ j).trans ?_
  have h0 : ∀ k : Fin 128, ((cfg3.win 0).blk t).view.emb (ix2 (j 0) k) = ix2 ((((cfg3.win 2).blk t).view.emb j) 0) k := fun k => by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * k.val = k.val; omega
  have h1 : ∀ k : Fin 128, ((cfg3.win 1).blk t).view.emb (ix2 k (j 1)) = ix2 k ((((cfg3.win 2).blk t).view.emb j) 1) := fun k => by
    funext a; apply Fin.ext
    match a with
    | ⟨0, _⟩ => show win3_1.index t (0 : Fin 2) * 128 + 1 * k.val = k.val; omega
    | ⟨1, _⟩ => show win3_1.index t (1 : Fin 2) * 128 + 1 * (j 1).val = win3_2.index t (1 : Fin 2) * 128 + 1 * (j 1).val; omega
  exact blockSum_eq_rowsByCols (V c main_v40) (V c main_arg3) ((cfg3.win 0).blk t).view.emb ((cfg3.win 1).blk t).view.emb
    ((cfg3.win 2).blk t).view.emb j h0 h1

/-- An index of the result array is in point t's block iff each coordinate is in the block's range on its axis. -/
theorem mem_block3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v41).slice (win3_2.rect t)).set ↔ _
  rw [View.set_slice_whole, Rect.mem_set_unit]
  exact Iff.rfl

/-- The twenty row blocks tile the result array: row r lies in the block of point r / 5000, and every block spans all
    128 columns. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  obtain ⟨e0, e1, e2, e3, e4, e5⟩ := blockIndex3 t
  have ht : t.val = (i 0).val / 5000 := rfl
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

theorem region3_final (c : Dev nD) :
    (dat3 (F := Ideal) V c).arrAt 2 cfg3.N = rowsByCols (V c main_v40) (V c main_arg3) :=
  (dat3 (F := Ideal) V c).arrAt_eq_of_cover 2 (rowsByCols (V c main_v40) (V c main_arg3)) (fun t _ => flushed3_eq V c t) cover3

/-! ## Region 6 -/

/-- Region 6's block indices at grid point t: the two row-block windows sit at block row t, the 128 × 128 window at
    block (0, 0). -/
theorem blockIndex6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What grid point t writes back is block t of the product of the two input arrays as the region found them: entry
    (p, q) of the block is row 5000 t + p of the first array against column q of the second. -/
theorem flushed6_eq (c : Dev nD) (t : Fin cfg6.N) :
    (dat6 (F := Ideal) V c).flushed 2 t
      = ((cfg6.win 2).blk t).view.read (Elt Ideal) (rowsByCols (V c main_v49) (V c main_arg5)) := by
  show (cfg6.win 2).cut (grid6.coords t) ((dat6 (F := Ideal) V c).after 2 t) = _
  rw [after6_2]
  unfold out6_2
  rw [View.canon_unit_zero zeroOffsets]
  simp only [View.ld_unit_zero (S := S5000x128) zeroOffsets, View.ld_unit_zero (S := S128x128) zeroOffsets]
  obtain ⟨e0, e1, e2, e3, e4, e5⟩ := blockIndex6 t
  funext j
  refine (k6_pay1_apply _ _ j).trans ?_
  have h0 : ∀ k : Fin 128, ((cfg6.win 0).blk t).view.emb (ix2 (j 0) k) = ix2 ((((cfg6.win 2).blk t).view.emb j) 0) k := fun k => by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have h1 : ∀ k : Fin 128, ((cfg6.win 1).blk t).view.emb (ix2 k (j 1)) = ix2 k ((((cfg6.win 2).blk t).view.emb j) 1) := fun k => by
    funext a; apply Fin.ext
    match a with
    | ⟨0, _⟩ => show win6_1.index t (0 : Fin 2) * 128 + 1 * k.val = k.val; omega
    | ⟨1, _⟩ => show win6_1.index t (1 : Fin 2) * 128 + 1 * (j 1).val = win6_2.index t (1 : Fin 2) * 128 + 1 * (j 1).val; omega
  exact blockSum_eq_rowsByCols (V c main_v49) (V c main_arg5) ((cfg6.win 0).blk t).view.emb ((cfg6.win 1).blk t).view.emb
    ((cfg6.win 2).blk t).view.emb j h0 h1

/-- An index of the result array is in point t's block iff each coordinate is in the block's range on its axis. -/
theorem mem_block6 (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v50).slice (win6_2.rect t)).set ↔ _
  rw [View.set_slice_whole, Rect.mem_set_unit]
  exact Iff.rfl

/-- The twenty row blocks tile the result array: row r lies in the block of point r / 5000, and every block spans all
    128 columns. -/
theorem cover6 (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  obtain ⟨e0, e1, e2, e3, e4, e5⟩ := blockIndex6 t
  have ht : t.val = (i 0).val / 5000 := rfl
  refine ⟨t, flush6_2 t, ?_⟩
  rw [mem_block6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

theorem region6_final (c : Dev nD) :
    (dat6 (F := Ideal) V c).arrAt 2 cfg6.N = rowsByCols (V c main_v49) (V c main_arg5) :=
  (dat6 (F := Ideal) V c).arrAt_eq_of_cover 2 (rowsByCols (V c main_v49) (V c main_arg5)) (fun t _ => flushed6_eq V c t) cover6

end Cert.Gcn

end
-- ==== Proof.RegionScale.lean ====
import proofs.«426999_j59536836657839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

/-- Every row e of a 1700000 × 128 array scaled by the e-th entry of a 1700000 × 1 column, over the extended reals. -/
def scaleRows (g : S1700000x128.Idx → EReal) (e : S1700000x1.Idx → EReal) : S1700000x128.Idx → EReal :=
  fun i => g i * e (ix2 (i 0) 0)

/-! ## The shared facts: the body's payload at an index -/

/-- The zero offsets of a whole-block access, as the constant function. -/
theorem zero_offsets : (![0, 0] : Fin 2 → Nat) = fun _ => 0 := funext fun a => by fin_cases a <;> rfl

/-- An [a, 1] column broadcast to [a, b] reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The multiply of a 4000 × 128 block by a 4000 × 1 column broadcast along the rows: entry (p, q) is the block's
    entry (p, q) times the column's entry p. -/
theorem scale_block_apply (x0 : Vec Ideal S4000x128 .f32) (x1 : Vec Ideal S4000x1 .f32)
    (h0 : S4000x128.ShapeCasts S4000x128) (h1 : S4000x1.ShapeCasts S4000x1) (hb : S4000x1.Broadcasts S4000x128)
    (j : S4000x128.Idx) :
    mulf (F := Ideal) (φ := .f32) (shapeCast S4000x128 x0 h0) (broadcastTo S4000x128 (shapeCast S4000x1 x1 h1) hb) j
      = x0 j * x1 (ix2 (j 0) 0) := by
  obtain ⟨p, q, rfl⟩ : ∃ (p : Fin 4000) (q : Fin 128), j = ix2 p q := ⟨j 0, j 1, eq_ix2 j⟩
  rw [mulf_apply, shapeCast_self, shapeCast_self]
  exact congrArg (x0 (ix2 p q) * ·) (broadcastTo_a1_ab_apply x1 hb p q)

/-- A product of a read of the array at an index and a read of the column at that index's row is the row-scaled
    array there. -/
theorem scaleRows_of_reads (g : S1700000x128.Idx → EReal) (e : S1700000x1.Idx → EReal) (i : S1700000x128.Idx)
    (a b : EReal) (ha : a = g i) (hb : b = e (ix2 (i 0) 0)) : a * b = scaleRows g e i := by
  subst ha hb; rfl

variable (V : (c : Dev nD) → (b : Ref sig .tc) → Buf (Elt Ideal) ((c : Thread nD τ).loc b))

/-! ## Region 1 -/

/-- The three windows' block indices at grid point t: each window is on block (t, 0) of its array. -/
theorem block_indices1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- Window 0's block at grid point t is rows 4000 t … 4000 t + 3999 of the array. -/
theorem block1_0_apply (c : Dev nD) (t : Fin cfg1.N) (y : S4000x128.Idx) (k : S1700000x128.Idx)
    (hk0 : (k 0).val = 4000 * t.val + (y 0).val) (hk1 : (k 1).val = (y 1).val) :
    (iblk1 V c 0 t : Vec Ideal S4000x128 .f32) y = (V c main_v33 : S1700000x128.Idx → EReal) k := by
  obtain ⟨e0, e1, -, -, -, -⟩ := block_indices1 t
  unfold iblk1
  rw [View.read_apply]
  show (V c main_v33 : S1700000x128.Idx → EReal) _ = (V c main_v33 : S1700000x128.Idx → EReal) _
  congr 1
  funext a
  apply Fin.ext
  match a with
  | ⟨0, _⟩ => show win1_0.index t (0 : Fin 2) * 4000 + 1 * (y 0).val = (k 0).val; omega
  | ⟨1, _⟩ => show win1_0.index t (1 : Fin 2) * 128 + 1 * (y 1).val = (k 1).val; omega

/-- Window 1's block at grid point t is rows 4000 t … 4000 t + 3999 of the column. -/
theorem block1_1_apply (c : Dev nD) (t : Fin cfg1.N) (y : S4000x1.Idx) (k : S1700000x1.Idx)
    (hk0 : (k 0).val = 4000 * t.val + (y 0).val) :
    (iblk1 V c 1 t : Vec Ideal S4000x1 .f32) y = (V c main_v34 : S1700000x1.Idx → EReal) k := by
  obtain ⟨-, -, e2, e3, -, -⟩ := block_indices1 t
  have hy : (y 1).val = 0 := by have := idx2_lt1 y; omega
  have hk : (k 1).val = 0 := by have := idx2_lt1 k; omega
  unfold iblk1
  rw [View.read_apply]
  show (V c main_v34 : S1700000x1.Idx → EReal) _ = (V c main_v34 : S1700000x1.Idx → EReal) _
  congr 1
  funext a
  apply Fin.ext
  match a with
  | ⟨0, _⟩ => show win1_1.index t (0 : Fin 2) * 4000 + 1 * (y 0).val = (k 0).val; omega
  | ⟨1, _⟩ => show win1_1.index t (1 : Fin 2) * 1 + 1 * (y 1).val = (k 1).val; omega

/-- Window 2's block at grid point t sits at rows 4000 t … 4000 t + 3999 of the result array, all its columns. -/
theorem block1_2_emb (t : Fin cfg1.N) (y : S4000x128.Idx) :
    ((((cfg1.win 2).blk t).view.emb y : S1700000x128.Idx) 0).val = 4000 * t.val + (y 0).val
    ∧ ((((cfg1.win 2).blk t).view.emb y : S1700000x128.Idx) 1).val = (y 1).val := by
  obtain ⟨-, -, -, -, e4, e5⟩ := block_indices1 t
  constructor
  · show win1_2.index t (0 : Fin 2) * 4000 + 1 * (y 0).val = _; omega
  · show win1_2.index t (1 : Fin 2) * 128 + 1 * (y 1).val = _; omega

/-- What grid point t writes back is block t of the row-scaled array. -/
theorem flushed1_eq (c : Dev nD) (t : Fin cfg1.N) :
    (dat1 (F := Ideal) V c).flushed 2 t
      = ((cfg1.win 2).blk t).view.read (Elt Ideal) (scaleRows (V c main_v33) (V c main_v34)) := by
  show (cfg1.win 2).cut (grid1.coords t) ((dat1 (F := Ideal) V c).after 2 t) = _
  rw [after1_2]
  unfold out1_2
  rw [View.canon_unit_zero zero_offsets]
  simp only [View.ld_unit_zero (S := S4000x128) zero_offsets, View.ld_unit_zero (S := S4000x1) zero_offsets]
  refine funext fun (j : S4000x128.Idx) => ?_
  show k1_pay1 (iblk1 V c 0 t) (iblk1 V c 1 t) j
    = scaleRows (V c main_v33) (V c main_v34) (((cfg1.win 2).blk t).view.emb j)
  unfold k1_pay1
  refine (scale_block_apply _ _ _ _ _ j).trans ?_
  obtain ⟨r0, r1⟩ := block1_2_emb t j
  refine scaleRows_of_reads _ _ _ _ _ ?_ ?_
  · exact block1_0_apply V c t j _ r0 r1
  · exact block1_1_apply V c t (ix2 (j 0) 0) _ r0

/-- An index of the result array is in grid point t's block iff each coordinate is in the block's range on its axis. -/
theorem mem_block1_2 (t : Fin cfg1.N) (i : S1700000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v35).slice (win1_2.rect t)).set ↔ _
  rw [View.set_slice_whole, Rect.mem_set_unit]
  exact Iff.rfl

/-- Every index of the result array lies in the block of the grid point its row names: row r is in block r / 4000,
    and 425 blocks of 4000 rows are the 1700000 rows. -/
theorem rows_covered1 (i : S1700000x128.Idx) :
    ∃ t : Fin cfg1.N, (cfg1.win 2).flush t = true ∧ i ∈ ((cfg1.win 2).blk t).view.set := by
  have hi0 : (i 0).val < 1700000 := idx2_lt0 i
  have hi1 : (i 1).val < 128 := idx2_lt1 i
  have hN : cfg1.N = 425 := N_1
  obtain ⟨t, ht⟩ : ∃ t : Fin cfg1.N, t.val = (i 0).val / 4000 := ⟨⟨(i 0).val / 4000, by rw [hN]; omega⟩, rfl⟩
  obtain ⟨-, -, -, -, e4, e5⟩ := block_indices1 t
  refine ⟨t, flush1_2 t, ?_⟩
  rw [mem_block1_2]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 128 ≤ (i 1).val ∧ (i 1).val < win1_2.index t (1 : Fin 2) * 128 + 128
    omega

theorem region1_final (c : Dev nD) :
    (dat1 (F := Ideal) V c).arrAt 2 cfg1.N = scaleRows (V c main_v33) (V c main_v34) :=
  (dat1 (F := Ideal) V c).arrAt_eq_of_cover 2 (scaleRows (V c main_v33) (V c main_v34))
    (fun t _ => flushed1_eq V c t) rows_covered1

/-! ## Region 4 -/

/-- The three windows' block indices at grid point t: each window is on block (t, 0) of its array. -/
theorem block_indices4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = t.val
    ∧ win4_2.index t (1 : Fin 2) = 0 :=
  (by decide +kernel : ∀ t : Fin grid4.N, _)

/-- Window 0's block at grid point t is rows 4000 t … 4000 t + 3999 of the array. -/
theorem block4_0_apply (c : Dev nD) (t : Fin cfg4.N) (y : S4000x128.Idx) (k : S1700000x128.Idx)
    (hk0 : (k 0).val = 4000 * t.val + (y 0).val) (hk1 : (k 1).val = (y 1).val) :
    (iblk4 V c 0 t : Vec Ideal S4000x128 .f32) y = (V c main_v42 : S1700000x128.Idx → EReal) k := by
  obtain ⟨e0, e1, -, -, -, -⟩ := block_indices4 t
  unfold iblk4
  rw [View.read_apply]
  show (V c main_v42 : S1700000x128.Idx → EReal) _ = (V c main_v42 : S1700000x128.Idx → EReal) _
  congr 1
  funext a
  apply Fin.ext
  match a with
  | ⟨0, _⟩ => show win4_0.index t (0 : Fin 2) * 4000 + 1 * (y 0).val = (k 0).val; omega
  | ⟨1, _⟩ => show win4_0.index t (1 : Fin 2) * 128 + 1 * (y 1).val = (k 1).val; omega

/-- Window 1's block at grid point t is rows 4000 t … 4000 t + 3999 of the column. -/
theorem block4_1_apply (c : Dev nD) (t : Fin cfg4.N) (y : S4000x1.Idx) (k : S1700000x1.Idx)
    (hk0 : (k 0).val = 4000 * t.val + (y 0).val) :
    (iblk4 V c 1 t : Vec Ideal S4000x1 .f32) y = (V c main_v43 : S1700000x1.Idx → EReal) k := by
  obtain ⟨-, -, e2, e3, -, -⟩ := block_indices4 t
  have hy : (y 1).val = 0 := by have := idx2_lt1 y; omega
  have hk : (k 1).val = 0 := by have := idx2_lt1 k; omega
  unfold iblk4
  rw [View.read_apply]
  show (V c main_v43 : S1700000x1.Idx → EReal) _ = (V c main_v43 : S1700000x1.Idx → EReal) _
  congr 1
  funext a
  apply Fin.ext
  match a with
  | ⟨0, _⟩ => show win4_1.index t (0 : Fin 2) * 4000 + 1 * (y 0).val = (k 0).val; omega
  | ⟨1, _⟩ => show win4_1.index t (1 : Fin 2) * 1 + 1 * (y 1).val = (k 1).val; omega

/-- Window 2's block at grid point t sits at rows 4000 t … 4000 t + 3999 of the result array, all its columns. -/
theorem block4_2_emb (t : Fin cfg4.N) (y : S4000x128.Idx) :
    ((((cfg4.win 2).blk t).view.emb y : S1700000x128.Idx) 0).val = 4000 * t.val + (y 0).val
    ∧ ((((cfg4.win 2).blk t).view.emb y : S1700000x128.Idx) 1).val = (y 1).val := by
  obtain ⟨-, -, -, -, e4, e5⟩ := block_indices4 t
  constructor
  · show win4_2.index t (0 : Fin 2) * 4000 + 1 * (y 0).val = _; omega
  · show win4_2.index t (1 : Fin 2) * 128 + 1 * (y 1).val = _; omega

/-- What grid point t writes back is block t of the row-scaled array. -/
theorem flushed4_eq (c : Dev nD) (t : Fin cfg4.N) :
    (dat4 (F := Ideal) V c).flushed 2 t
      = ((cfg4.win 2).blk t).view.read (Elt Ideal) (scaleRows (V c main_v42) (V c main_v43)) := by
  show (cfg4.win 2).cut (grid4.coords t) ((dat4 (F := Ideal) V c).after 2 t) = _
  rw [after4_2]
  unfold out4_2
  rw [View.canon_unit_zero zero_offsets]
  simp only [View.ld_unit_zero (S := S4000x128) zero_offsets, View.ld_unit_zero (S := S4000x1) zero_offsets]
  refine funext fun (j : S4000x128.Idx) => ?_
  show k4_pay1 (iblk4 V c 0 t) (iblk4 V c 1 t) j
    = scaleRows (V c main_v42) (V c main_v43) (((cfg4.win 2).blk t).view.emb j)
  unfold k4_pay1
  refine (scale_block_apply _ _ _ _ _ j).trans ?_
  obtain ⟨r0, r1⟩ := block4_2_emb t j
  refine scaleRows_of_reads _ _ _ _ _ ?_ ?_
  · exact block4_0_apply V c t j _ r0 r1
  · exact block4_1_apply V c t (ix2 (j 0) 0) _ r0

/-- An index of the result array is in grid point t's block iff each coordinate is in the block's range on its axis. -/
theorem mem_block4_2 (t : Fin cfg4.N) (i : S1700000x128.Idx) :
    i ∈ ((cfg4.win 2).blk t).view.set ↔ ∀ a : Fin 2, win4_2.index t a * S4000x128.size a ≤ (i a).val
      ∧ (i a).val < win4_2.index t a * S4000x128.size a + S4000x128.size a := by
  show i ∈ ((View.whole main_v44).slice (win4_2.rect t)).set ↔ _
  rw [View.set_slice_whole, Rect.mem_set_unit]
  exact Iff.rfl

/-- Every index of the result array lies in the block of the grid point its row names: row r is in block r / 4000,
    and 425 blocks of 4000 rows are the 1700000 rows. -/
theorem rows_covered4 (i : S1700000x128.Idx) :
    ∃ t : Fin cfg4.N, (cfg4.win 2).flush t = true ∧ i ∈ ((cfg4.win 2).blk t).view.set := by
  have hi0 : (i 0).val < 1700000 := idx2_lt0 i
  have hi1 : (i 1).val < 128 := idx2_lt1 i
  have hN : cfg4.N = 425 := N_4
  obtain ⟨t, ht⟩ : ∃ t : Fin cfg4.N, t.val = (i 0).val / 4000 := ⟨⟨(i 0).val / 4000, by rw [hN]; omega⟩, rfl⟩
  obtain ⟨-, -, -, -, e4, e5⟩ := block_indices4 t
  refine ⟨t, flush4_2 t, ?_⟩
  rw [mem_block4_2]
  intro a
  match a with
  | ⟨0, _⟩ =>
    show win4_2.index t (0 : Fin 2) * 4000 ≤ (i 0).val ∧ (i 0).val < win4_2.index t (0 : Fin 2) * 4000 + 4000
    omega
  | ⟨1, _⟩ =>
    show win4_2.index t (1 : Fin 2) * 128 ≤ (i 1).val ∧ (i 1).val < win4_2.index t (1 : Fin 2) * 128 + 128
    omega

theorem region4_final (c : Dev nD) :
    (dat4 (F := Ideal) V c).arrAt 2 cfg4.N = scaleRows (V c main_v42) (V c main_v43) :=
  (dat4 (F := Ideal) V c).arrAt_eq_of_cover 2 (scaleRows (V c main_v42) (V c main_v43))
    (fun t _ => flushed4_eq V c t) rows_covered4

/-! ## Region 7 -/

/-- The three windows' block indices at grid point t: each window is on block (t, 0) of its array. -/
theorem block_indices7 : ∀ t : Fin cfg7.N, win7_0.index t (0 : Fin 2) = t.val
    ∧ win7_0.index t (1 : Fin 2) = 0
    ∧ win7_1.index t (0 : Fin 2) = t.val
    ∧ win7_1.index t (1 : Fin 2) = 0
    ∧ win7_2.index t (0 : Fin 2) = t.val
    ∧ win7_2.index t (1 : Fin 2) = 0 :=
  (by decide +kernel : ∀ t : Fin grid7.N, _)

/-- Window 0's block at grid point t is rows 4000 t … 4000 t + 3999 of the array. -/
theorem block7_0_apply (c : Dev nD) (t : Fin cfg7.N) (y : S4000x128.Idx) (k : S1700000x128.Idx)
    (hk0 : (k 0).val = 4000 * t.val + (y 0).val) (hk1 : (k 1).val = (y 1).val) :
    (iblk7 V c 0 t : Vec Ideal S4000x128 .f32) y = (V c main_v51 : S1700000x128.Idx → EReal) k := by
  obtain ⟨e0, e1, -, -, -, -⟩ := block_indices7 t
  unfold iblk7
  rw [View.read_apply]
  show (V c main_v51 : S1700000x128.Idx → EReal) _ = (V c main_v51 : S1700000x128.Idx → EReal) _
  congr 1
  funext a
  apply Fin.ext
  match a with
  | ⟨0, _⟩ => show win7_0.index t (0 : Fin 2) * 4000 + 1 * (y 0).val = (k 0).val; omega
  | ⟨1, _⟩ => show win7_0.index t (1 : Fin 2) * 128 + 1 * (y 1).val = (k 1).val; omega

/-- Window 1's block at grid point t is rows 4000 t … 4000 t + 3999 of the column. -/
theorem block7_1_apply (c : Dev nD) (t : Fin cfg7.N) (y : S4000x1.Idx) (k : S1700000x1.Idx)
    (hk0 : (k 0).val = 4000 * t.val + (y 0).val) :
    (iblk7 V c 1 t : Vec Ideal S4000x1 .f32) y = (V c main_v52 : S1700000x1.Idx → EReal) k := by
  obtain ⟨-, -, e2, e3, -, -⟩ := block_indices7 t
  have hy : (y 1).val = 0 := by have := idx2_lt1 y; omega
  have hk : (k 1).val = 0 := by have := idx2_lt1 k; omega
  unfold iblk7
  rw [View.read_apply]
  show (V c main_v52 : S1700000x1.Idx → EReal) _ = (V c main_v52 : S1700000x1.Idx → EReal) _
  congr 1
  funext a
  apply Fin.ext
  match a with
  | ⟨0, _⟩ => show win7_1.index t (0 : Fin 2) * 4000 + 1 * (y 0).val = (k 0).val; omega
  | ⟨1, _⟩ => show win7_1.index t (1 : Fin 2) * 1 + 1 * (y 1).val = (k 1).val; omega

/-- Window 2's block at grid point t sits at rows 4000 t … 4000 t + 3999 of the result array, all its columns. -/
theorem block7_2_emb (t : Fin cfg7.N) (y : S4000x128.Idx) :
    ((((cfg7.win 2).blk t).view.emb y : S1700000x128.Idx) 0).val = 4000 * t.val + (y 0).val
    ∧ ((((cfg7.win 2).blk t).view.emb y : S1700000x128.Idx) 1).val = (y 1).val := by
  obtain ⟨-, -, -, -, e4, e5⟩ := block_indices7 t
  constructor
  · show win7_2.index t (0 : Fin 2) * 4000 + 1 * (y 0).val = _; omega
  · show win7_2.index t (1 : Fin 2) * 128 + 1 * (y 1).val = _; omega

/-- What grid point t writes back is block t of the row-scaled array. -/
theorem flushed7_eq (c : Dev nD) (t : Fin cfg7.N) :
    (dat7 (F := Ideal) V c).flushed 2 t
      = ((cfg7.win 2).blk t).view.read (Elt Ideal) (scaleRows (V c main_v51) (V c main_v52)) := by
  show (cfg7.win 2).cut (grid7.coords t) ((dat7 (F := Ideal) V c).after 2 t) = _
  rw [after7_2]
  unfold out7_2
  rw [View.canon_unit_zero zero_offsets]
  simp only [View.ld_unit_zero (S := S4000x128) zero_offsets, View.ld_unit_zero (S := S4000x1) zero_offsets]
  refine funext fun (j : S4000x128.Idx) => ?_
  show k7_pay1 (iblk7 V c 0 t) (iblk7 V c 1 t) j
    = scaleRows (V c main_v51) (V c main_v52) (((cfg7.win 2).blk t).view.emb j)
  unfold k7_pay1
  refine (scale_block_apply _ _ _ _ _ j).trans ?_
  obtain ⟨r0, r1⟩ := block7_2_emb t j
  refine scaleRows_of_reads _ _ _ _ _ ?_ ?_
  · exact block7_0_apply V c t j _ r0 r1
  · exact block7_1_apply V c t (ix2 (j 0) 0) _ r0

/-- An index of the result array is in grid point t's block iff each coordinate is in the block's range on its axis. -/
theorem mem_block7_2 (t : Fin cfg7.N) (i : S1700000x128.Idx) :
    i ∈ ((cfg7.win 2).blk t).view.set ↔ ∀ a : Fin 2, win7_2.index t a * S4000x128.size a ≤ (i a).val
      ∧ (i a).val < win7_2.index t a * S4000x128.size a + S4000x128.size a := by
  show i ∈ ((View.whole main_v53).slice (win7_2.rect t)).set ↔ _
  rw [View.set_slice_whole, Rect.mem_set_unit]
  exact Iff.rfl

/-- Every index of the result array lies in the block of the grid point its row names: row r is in block r / 4000,
    and 425 blocks of 4000 rows are the 1700000 rows. -/
theorem rows_covered7 (i : S1700000x128.Idx) :
    ∃ t : Fin cfg7.N, (cfg7.win 2).flush t = true ∧ i ∈ ((cfg7.win 2).blk t).view.set := by
  have hi0 : (i 0).val < 1700000 := idx2_lt0 i
  have hi1 : (i 1).val < 128 := idx2_lt1 i
  have hN : cfg7.N = 425 := N_7
  obtain ⟨t, ht⟩ : ∃ t : Fin cfg7.N, t.val = (i 0).val / 4000 := ⟨⟨(i 0).val / 4000, by rw [hN]; omega⟩, rfl⟩
  obtain ⟨-, -, -, -, e4, e5⟩ := block_indices7 t
  refine ⟨t, flush7_2 t, ?_⟩
  rw [mem_block7_2]
  intro a
  match a with
  | ⟨0, _⟩ =>
    show win7_2.index t (0 : Fin 2) * 4000 ≤ (i 0).val ∧ (i 0).val < win7_2.index t (0 : Fin 2) * 4000 + 4000
    omega
  | ⟨1, _⟩ =>
    show win7_2.index t (1 : Fin 2) * 128 ≤ (i 1).val ∧ (i 1).val < win7_2.index t (1 : Fin 2) * 128 + 128
    omega

theorem region7_final (c : Dev nD) :
    (dat7 (F := Ideal) V c).arrAt 2 cfg7.N = scaleRows (V c main_v51) (V c main_v52) :=
  (dat7 (F := Ideal) V c).arrAt_eq_of_cover 2 (scaleRows (V c main_v51) (V c main_v52))
    (fun t _ => flushed7_eq V c t) rows_covered7

end Cert.Gcn

end
-- ==== Proof.RegionBias.lean ====
import proofs.«426999_j59536836657839_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn

open Idealize.ShloMosaic Idealize.ShloMosaic.TcCoe Idealize.SL.Sem Idealize.ShloMosaic.ValueIdx
open Idealize.ShloMosaic.Pipeline (Dat)
open Cert.KernelIdeal Cert.KernelIdeal.Gen

/-- A 1 × 128 row added to every row of a 100000 × 128 array, over the extended reals. -/
def addRow (a : S100000x128.Idx → EReal) (b : S1x128.Idx → EReal) : S100000x128.Idx → EReal :=
  fun i => a i + b (ix2 0 (i 1))

/-- The same followed by the maximum with zero (zero as the word 0x00000000 reads). -/
def addRowRelu (a : S100000x128.Idx → EReal) (b : S1x128.Idx → EReal) : S100000x128.Idx → EReal :=
  fun i => max (a i + b (ix2 0 (i 1))) (Ideal.ofBits .f32 0x00000000#32)

variable (V : (c : Dev nD) → (b : Ref sig .tc) → Buf (Elt Ideal) ((c : Thread nD τ).loc b))

/-- The offsets (0, 0) are zero on every axis. -/
theorem zero_offsets : (![0, 0] : Fin 2 → Nat) = fun _ => 0 :=
  funext fun a => match a with | ⟨0, _⟩ => rfl | ⟨1, _⟩ => rfl

/-- Entry (p, q) of region 8's stored block: the block's entry (p, q) plus the row's entry (0, q). -/
theorem bias_block8_apply (x0 : Vec Ideal S5000x128 .f32) (x1 : Vec Ideal S1x128 .f32) (j : S5000x128.Idx) :
    k8_pay1 x0 x1 j = x0 j + x1 (ix2 0 (j 1)) := by
  obtain ⟨p, q, rfl⟩ : ∃ (p : Fin 5000) (q : Fin 128), j = ix2 p q := ⟨j 0, j 1, eq_ix2 j⟩
  unfold k8_pay1
  rw [addf_apply, shapeCast_self, shapeCast_self, broadcastTo_1b_ab_apply]

/-- Entry (p, q) of region 2's stored block: the maximum of the block's entry (p, q) plus the row's entry (0, q)
    with what the zero word reads. -/
theorem bias_relu_block2_apply (x0 : Vec Ideal S5000x128 .f32) (x1 : Vec Ideal S1x128 .f32) (j : S5000x128.Idx) :
    k2_pay1 x0 x1 j = max (x0 j + x1 (ix2 0 (j 1))) (Ideal.ofBits .f32 0x00000000#32) := by
  obtain ⟨p, q, rfl⟩ : ∃ (p : Fin 5000) (q : Fin 128), j = ix2 p q := ⟨j 0, j 1, eq_ix2 j⟩
  unfold k2_pay1
  rw [maximumf_apply, addf_apply, shapeCast_self, shapeCast_self, broadcastTo_1b_ab_apply, broadcast_apply]
  rfl

/-- Entry (p, q) of region 5's stored block: the same as region 2's. -/
theorem bias_relu_block5_apply (x0 : Vec Ideal S5000x128 .f32) (x1 : Vec Ideal S1x128 .f32) (j : S5000x128.Idx) :
    k5_pay1 x0 x1 j = max (x0 j + x1 (ix2 0 (j 1))) (Ideal.ofBits .f32 0x00000000#32) := by
  obtain ⟨p, q, rfl⟩ : ∃ (p : Fin 5000) (q : Fin 128), j = ix2 p q := ⟨j 0, j 1, eq_ix2 j⟩
  unfold k5_pay1
  rw [maximumf_apply, addf_apply, shapeCast_self, shapeCast_self, broadcastTo_1b_ab_apply, broadcast_apply]
  rfl

/-! ## Region 2 -/

/-- The printed index maps of region 2, decided over its 20 grid points: windows 0 and 2 sit at row block `t`,
    column block 0; window 1 stays at block (0, 0). -/
theorem index_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Window 0's block at point `t` is rows `5000 t … 5000 t + 4999` of its array. -/
theorem block0_apply2 (c : Dev nD) (t : Fin cfg2.N) (y : S5000x128.Idx) (i : S100000x128.Idx)
    (h0 : (i 0).val = 5000 * t.val + (y 0).val) (h1 : (i 1).val = (y 1).val) :
    (iblk2 V c 0 t : Vec Ideal S5000x128 .f32) y = (V c main_v38 : S100000x128.Idx → EReal) i := by
  obtain ⟨e0, e1, -, -, -, -⟩ := index_facts2 t
  unfold iblk2
  rw [View.read_apply]
  show V c main_v38 _ = V c main_v38 _
  congr 1
  funext a
  apply Fin.ext
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- Window 1's block at every point is its whole 1 × 128 array. -/
theorem block1_apply2 (c : Dev nD) (t : Fin cfg2.N) (y : S1x128.Idx) :
    (iblk2 V c 1 t : Vec Ideal S1x128 .f32) y = (V c main_v39 : S1x128.Idx → EReal) y := by
  obtain ⟨-, -, e2, e3, -, -⟩ := index_facts2 t
  unfold iblk2
  rw [View.read_apply]
  show V c main_v39 _ = V c main_v39 _
  congr 1
  funext a
  apply Fin.ext
  match a with
  | ⟨0, _⟩ => show win2_1.index t (0 : Fin 2) * 1 + 1 * (y 0).val = (y 0).val; rw [e2]; omega
  | ⟨1, _⟩ => show win2_1.index t (1 : Fin 2) * 128 + 1 * (y 1).val = (y 1).val; rw [e3]; omega

/-- Where entry `y` of output block `t` sits in the result array: row `5000 t + y 0`, column `y 1`. -/
theorem out_emb2 (t : Fin cfg2.N) (y : S5000x128.Idx) :
    ((((cfg2.win 2).blk t).view.emb y : S100000x128.Idx) 0).val = 5000 * t.val + (y 0).val
      ∧ ((((cfg2.win 2).blk t).view.emb y : S100000x128.Idx) 1).val = (y 1).val := by
  obtain ⟨-, -, -, -, e4, e5⟩ := index_facts2 t
  constructor
  · show win2_2.index t (0 : Fin 2) * 5000 + 1 * (y 0).val = _; rw [e4]; omega
  · show win2_2.index t (1 : Fin 2) * 128 + 1 * (y 1).val = _; rw [e5]; omega

/-- What point `t` writes back is block `t` of the whole-array function of the two input arrays. -/
theorem region2_flushed (c : Dev nD) (t : Fin cfg2.N) :
    (dat2 (F := Ideal) V c).flushed 2 t
      = ((cfg2.win 2).blk t).view.read (Elt Ideal) (addRowRelu (V c main_v38) (V c main_v39)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S1x128) zero_offsets]
  funext j
  show k2_pay1 (iblk2 V c 0 t) (iblk2 V c 1 t) j
    = addRowRelu (V c main_v38) (V c main_v39) (((cfg2.win 2).blk t).view.emb j)
  refine (bias_relu_block2_apply _ _ j).trans ?_
  obtain ⟨r0, r1⟩ := out_emb2 t j
  unfold addRowRelu
  rw [block0_apply2 V c t j (((cfg2.win 2).blk t).view.emb j) r0 r1, block1_apply2 V c t]
  have hq : (j 1 : Fin 128) = (((cfg2.win 2).blk t).view.emb j : S100000x128.Idx) 1 := Fin.ext r1.symm
  rw [hq]

/-- An index of the result array is in point `t`'s block iff each coordinate is in the block's range on its axis. -/
theorem mem_block2 (t : Fin cfg2.N) (i : S100000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v40).slice (win2_2.rect t)).set ↔ _
  rw [View.set_slice_whole, Rect.mem_set_unit]
  exact Iff.rfl

/-- The 20 blocks of 5000 rows tile the 100000 rows: row `r` lies in the block of point `r / 5000`. -/
theorem region2_cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨-, -, -, -, e4, e5⟩ := index_facts2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

theorem region2_final (c : Dev nD) :
    (dat2 (F := Ideal) V c).arrAt 2 cfg2.N = addRowRelu (V c main_v38) (V c main_v39) :=
  (dat2 (F := Ideal) V c).arrAt_eq_of_cover 2 (addRowRelu (V c main_v38) (V c main_v39))
    (fun t _ => region2_flushed V c t) region2_cover

/-! ## Region 5 -/

/-- The printed index maps of region 5, decided over its 20 grid points: windows 0 and 2 sit at row block `t`,
    column block 0; window 1 stays at block (0, 0). -/
theorem index_facts5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- Window 0's block at point `t` is rows `5000 t … 5000 t + 4999` of its array. -/
theorem block0_apply5 (c : Dev nD) (t : Fin cfg5.N) (y : S5000x128.Idx) (i : S100000x128.Idx)
    (h0 : (i 0).val = 5000 * t.val + (y 0).val) (h1 : (i 1).val = (y 1).val) :
    (iblk5 V c 0 t : Vec Ideal S5000x128 .f32) y = (V c main_v47 : S100000x128.Idx → EReal) i := by
  obtain ⟨e0, e1, -, -, -, -⟩ := index_facts5 t
  unfold iblk5
  rw [View.read_apply]
  show V c main_v47 _ = V c main_v47 _
  congr 1
  funext a
  apply Fin.ext
  match a with
  | ⟨0, _⟩ => show win5_0.index t (0 : Fin 2) * 5000 + 1 * (y 0).val = (i 0).val; rw [e0, h0]; omega
  | ⟨1, _⟩ => show win5_0.index t (1 : Fin 2) * 128 + 1 * (y 1).val = (i 1).val; rw [e1, h1]; omega

/-- Window 1's block at every point is its whole 1 × 128 array. -/
theorem block1_apply5 (c : Dev nD) (t : Fin cfg5.N) (y : S1x128.Idx) :
    (iblk5 V c 1 t : Vec Ideal S1x128 .f32) y = (V c main_v48 : S1x128.Idx → EReal) y := by
  obtain ⟨-, -, e2, e3, -, -⟩ := index_facts5 t
  unfold iblk5
  rw [View.read_apply]
  show V c main_v48 _ = V c main_v48 _
  congr 1
  funext a
  apply Fin.ext
  match a with
  | ⟨0, _⟩ => show win5_1.index t (0 : Fin 2) * 1 + 1 * (y 0).val = (y 0).val; rw [e2]; omega
  | ⟨1, _⟩ => show win5_1.index t (1 : Fin 2) * 128 + 1 * (y 1).val = (y 1).val; rw [e3]; omega

/-- Where entry `y` of output block `t` sits in the result array: row `5000 t + y 0`, column `y 1`. -/
theorem out_emb5 (t : Fin cfg5.N) (y : S5000x128.Idx) :
    ((((cfg5.win 2).blk t).view.emb y : S100000x128.Idx) 0).val = 5000 * t.val + (y 0).val
      ∧ ((((cfg5.win 2).blk t).view.emb y : S100000x128.Idx) 1).val = (y 1).val := by
  obtain ⟨-, -, -, -, e4, e5⟩ := index_facts5 t
  constructor
  · show win5_2.index t (0 : Fin 2) * 5000 + 1 * (y 0).val = _; rw [e4]; omega
  · show win5_2.index t (1 : Fin 2) * 128 + 1 * (y 1).val = _; rw [e5]; omega

/-- What point `t` writes back is block `t` of the whole-array function of the two input arrays. -/
theorem region5_flushed (c : Dev nD) (t : Fin cfg5.N) :
    (dat5 (F := Ideal) V c).flushed 2 t
      = ((cfg5.win 2).blk t).view.read (Elt Ideal) (addRowRelu (V c main_v47) (V c main_v48)) := by
  show (cfg5.win 2).cut (grid5.coords t) ((dat5 V c).after 2 t) = _
  rw [after5_2]
  unfold out5_2
  rw [View.canon_unit_zero zero_offsets]
  simp only [View.ld_unit_zero (S := S5000x128) zero_offsets, View.ld_unit_zero (S := S1x128) zero_offsets]
  funext j
  show k5_pay1 (iblk5 V c 0 t) (iblk5 V c 1 t) j
    = addRowRelu (V c main_v47) (V c main_v48) (((cfg5.win 2).blk t).view.emb j)
  refine (bias_relu_block5_apply _ _ j).trans ?_
  obtain ⟨r0, r1⟩ := out_emb5 t j
  unfold addRowRelu
  rw [block0_apply5 V c t j (((cfg5.win 2).blk t).view.emb j) r0 r1, block1_apply5 V c t]
  have hq : (j 1 : Fin 128) = (((cfg5.win 2).blk t).view.emb j : S100000x128.Idx) 1 := Fin.ext r1.symm
  rw [hq]

/-- An index of the result array is in point `t`'s block iff each coordinate is in the block's range on its axis. -/
theorem mem_block5 (t : Fin cfg5.N) (i : S100000x128.Idx) :
    i ∈ ((cfg5.win 2).blk t).view.set
      ↔ ∀ a : Fin 2, win5_2.index t a * S5000x128.size a ≤ (i a).val
          ∧ (i a).val < win5_2.index t a * S5000x128.size a + S5000x128.size a := by
  show i ∈ ((View.whole main_v49).slice (win5_2.rect t)).set ↔ _
  rw [View.set_slice_whole, Rect.mem_set_unit]
  exact Iff.rfl

/-- The 20 blocks of 5000 rows tile the 100000 rows: row `r` lies in the block of point `r / 5000`. -/
theorem region5_cover (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have ht : t.val = (i 0).val / 5000 := rfl
  obtain ⟨-, -, -, -, e4, e5⟩ := index_facts5 t
  refine ⟨t, flush5_2 t, ?_⟩
  rw [mem_block5]
  intro a
  match a with
  | ⟨0, _⟩ =>
    show win5_2.index t (0 : Fin 2) * 5000 ≤ (i 0).val ∧ (i 0).val < win5_2.index t (0 : Fin 2) * 5000 + 5000
    rw [e4, ht]; omega
  | ⟨1, _⟩ =>
    show win5_2.index t (1 : Fin 2) * 128 ≤ (i 1).val ∧ (i 1).val < win5_2.index t (1 : Fin 2) * 128 + 128
    rw [e5]; omega

theorem region5_final (c : Dev nD) :
    (dat5 (F := Ideal) V c).arrAt 2 cfg5.N = addRowRelu (V c main_v47) (V c main_v48) :=
  (dat5 (F := Ideal) V c).arrAt_eq_of_cover 2 (addRowRelu (V c main_v47) (V c main_v48))
    (fun t _ => region5_flushed V c t) region5_cover

/-! ## Region 8 -/

/-- The printed index maps of region 8, decided over its 20 grid points: windows 0 and 2 sit at row block `t`,
    column block 0; window 1 stays at block (0, 0). -/
theorem index_facts8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

/-- Window 0's block at point `t` is rows `5000 t … 5000 t + 4999` of its array. -/
theorem block0_apply8 (c : Dev nD) (t : Fin cfg8.N) (y : S5000x128.Idx) (i : S100000x128.Idx)
    (h0 : (i 0).val = 5000 * t.val + (y 0).val) (h1 : (i 1).val = (y 1).val) :
    (iblk8 V c 0 t : Vec Ideal S5000x128 .f32) y = (V c main_v56 : S100000x128.Idx → EReal) i := by
  obtain ⟨e0, e1, -, -, -, -⟩ := index_facts8 t
  unfold iblk8
  rw [View.read_apply]
  show V c main_v56 _ = V c main_v56 _
  congr 1
  funext a
  apply Fin.ext
  match a with
  | ⟨0, _⟩ => show win8_0.index t (0 : Fin 2) * 5000 + 1 * (y 0).val = (i 0).val; rw [e0, h0]; omega
  | ⟨1, _⟩ => show win8_0.index t (1 : Fin 2) * 128 + 1 * (y 1).val = (i 1).val; rw [e1, h1]; omega

/-- Window 1's block at every point is its whole 1 × 128 array. -/
theorem block1_apply8 (c : Dev nD) (t : Fin cfg8.N) (y : S1x128.Idx) :
    (iblk8 V c 1 t : Vec Ideal S1x128 .f32) y = (V c main_v57 : S1x128.Idx → EReal) y := by
  obtain ⟨-, -, e2, e3, -, -⟩ := index_facts8 t
  unfold iblk8
  rw [View.read_apply]
  show V c main_v57 _ = V c main_v57 _
  congr 1
  funext a
  apply Fin.ext
  match a with
  | ⟨0, _⟩ => show win8_1.index t (0 : Fin 2) * 1 + 1 * (y 0).val = (y 0).val; rw [e2]; omega
  | ⟨1, _⟩ => show win8_1.index t (1 : Fin 2) * 128 + 1 * (y 1).val = (y 1).val; rw [e3]; omega

/-- Where entry `y` of output block `t` sits in the result array: row `5000 t + y 0`, column `y 1`. -/
theorem out_emb8 (t : Fin cfg8.N) (y : S5000x128.Idx) :
    ((((cfg8.win 2).blk t).view.emb y : S100000x128.Idx) 0).val = 5000 * t.val + (y 0).val
      ∧ ((((cfg8.win 2).blk t).view.emb y : S100000x128.Idx) 1).val = (y 1).val := by
  obtain ⟨-, -, -, -, e4, e5⟩ := index_facts8 t
  constructor
  · show win8_2.index t (0 : Fin 2) * 5000 + 1 * (y 0).val = _; rw [e4]; omega
  · show win8_2.index t (1 : Fin 2) * 128 + 1 * (y 1).val = _; rw [e5]; omega

/-- What point `t` writes back is block `t` of the whole-array function of the two input arrays. -/
theorem region8_flushed (c : Dev nD) (t : Fin cfg8.N) :
    (dat8 (F := Ideal) V c).flushed 2 t
      = ((cfg8.win 2).blk t).view.read (Elt Ideal) (addRow (V c main_v56) (V c main_v57)) := by
  show (cfg8.win 2).cut (grid8.coords t) ((dat8 V c).after 2 t) = _
  rw [after8_2]
  unfold out8_2
  rw [View.canon_unit_zero zero_offsets]
  simp only [View.ld_unit_zero (S := S5000x128) zero_offsets, View.ld_unit_zero (S := S1x128) zero_offsets]
  funext j
  show k8_pay1 (iblk8 V c 0 t) (iblk8 V c 1 t) j
    = addRow (V c main_v56) (V c main_v57) (((cfg8.win 2).blk t).view.emb j)
  refine (bias_block8_apply _ _ j).trans ?_
  obtain ⟨r0, r1⟩ := out_emb8 t j
  unfold addRow
  rw [block0_apply8 V c t j (((cfg8.win 2).blk t).view.emb j) r0 r1, block1_apply8 V c t]
  have hq : (j 1 : Fin 128) = (((cfg8.win 2).blk t).view.emb j : S100000x128.Idx) 1 := Fin.ext r1.symm
  rw [hq]

/-- An index of the result array is in point `t`'s block iff each coordinate is in the block's range on its axis. -/
theorem mem_block8 (t : Fin cfg8.N) (i : S100000x128.Idx) :
    i ∈ ((cfg8.win 2).blk t).view.set
      ↔ ∀ a : Fin 2, win8_2.index t a * S5000x128.size a ≤ (i a).val
          ∧ (i a).val < win8_2.index t a * S5000x128.size a + S5000x128.size a := by
  show i ∈ ((View.whole main_v58).slice (win8_2.rect t)).set ↔ _
  rw [View.set_slice_whole, Rect.mem_set_unit]
  exact Iff.rfl

/-- The 20 blocks of 5000 rows tile the 100000 rows: row `r` lies in the block of point `r / 5000`. -/
theorem region8_cover (i : S100000x128.Idx) :
    ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 20 := N_8
  let t : Fin cfg8.N := ⟨(i 0).val / 5000, by rw [hN]; omega⟩
  have ht : t.val = (i 0).val / 5000 := rfl
  obtain ⟨-, -, -, -, e4, e5⟩ := index_facts8 t
  refine ⟨t, flush8_2 t, ?_⟩
  rw [mem_block8]
  intro a
  match a with
  | ⟨0, _⟩ =>
    show win8_2.index t (0 : Fin 2) * 5000 ≤ (i 0).val ∧ (i 0).val < win8_2.index t (0 : Fin 2) * 5000 + 5000
    rw [e4, ht]; omega
  | ⟨1, _⟩ =>
    show win8_2.index t (1 : Fin 2) * 128 ≤ (i 1).val ∧ (i 1).val < win8_2.index t (1 : Fin 2) * 128 + 128
    rw [e5]; omega

theorem region8_final (c : Dev nD) :
    (dat8 (F := Ideal) V c).arrAt 2 cfg8.N = addRow (V c main_v56) (V c main_v57) :=
  (dat8 (F := Ideal) V c).arrAt_eq_of_cover 2 (addRow (V c main_v56) (V c main_v57))
    (fun t _ => region8_flushed V c t) region8_cover

end Cert.Gcn

end
-- ==== Proof.Network.lean ====
import proofs.«426999_j59536836657839_1_alg».proof.Proof.Gen.KernelIdeal.Frame
import proofs.«426999_j59536836657839_1_alg».proof.Proof.LibHostStretch
import proofs.«426999_j59536836657839_1_alg».proof.Proof.IndexRange
import proofs.«426999_j59536836657839_1_alg».proof.Proof.TakeStretch
import proofs.«426999_j59536836657839_1_alg».proof.Proof.RegionMatmul
import proofs.«426999_j59536836657839_1_alg».proof.Proof.RegionScale
import proofs.«426999_j59536836657839_1_alg».proof.Proof.RegionBias
import Idealize.ShloMosaic.Lib.StableHlo.Run
import Idealize.ShloMosaic.Lib.ValueIdx

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

/-! # The graph convolution as whole-array functions of the arguments

Three layers of the same map. With r the source and c the target of every edge (the 1600000 given edges followed by one
self loop per node), d the in-degree of every node counting its self loop, and the edge weight d[r]^(-1/2) · d[c]^(-1/2):
a layer multiplies the node features by a 128 × 128 matrix, takes for every edge the row of its source scaled by the
edge's weight, adds these rows up at the edge's target, and adds a bias row (followed, in the first two layers, by the
maximum with zero). -/

/-- The second row of the edge array (the target node of every edge), followed by the self-loop indices. -/
def targetsWithLoops (ei : IVec S2x1600000 32) : IVec S1700000 32 :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- A vector of node indices as a 1700000 × 1 column. -/
def asColumn (v : IVec S1700000 32) : IVec S1700000x1 32 := broadcastInDim S1700000x1 ![0] bcast_S1700000_S1700000x1_0 v

/-- The in-degree of every node, its self loop counted: a one added at the target of every edge. -/
def degrees (c : IVec S1700000 32) : FVec Ideal S100000 .f32 :=
  Host.scatterAdd scatter_S100000_S1700000x1_S1700000_n_0_0_1
    (broadcastInDim S100000 ![] bcast_S_S100000 (constant S_ .f32 0x00000000#32)) (asColumn c)
    (broadcastInDim S1700000 ![] bcast_S_S1700000 (constant S_ .f32 0x3F800000#32))

/-- d^(-1/2) at the nodes of positive degree d, zero elsewhere. -/
def invSqrtDegrees (c : IVec S1700000 32) : FVec Ideal S100000 .f32 :=
  select (cmpf .ogt (degrees c) (broadcastInDim S100000 ![] bcast_S_S100000 (constant S_ .f32 0x00000000#32)))
    (Host.rsqrt (maximumf (degrees c) (broadcastInDim S100000 ![] bcast_S_S100000 (constant S_ .f32 0x0DA24260#32))))
    (broadcastInDim S100000 ![] bcast_S_S100000 (id (constant S_ .f32 0x00000000#32)))

/-- The weight of every edge: the product of the two factors d^(-1/2) at its source and at its target. -/
def edgeWeights (r c : IVec S1700000 32) : FVec Ideal S1700000 .f32 :=
  mulf (Host.gather gather_S100000_S1700000x1_S1700000_n_0_n_n_0_1_1 (invSqrtDegrees c) (wrapRows r))
    (Host.gather gather_S100000_S1700000x1_S1700000_n_0_n_n_0_1_1 (invSqrtDegrees c) (wrapRows c))

/-- For every edge, the row of the node features at its source. -/
def rowsAtSources (h : FVec Ideal S100000x128 .f32) (r : IVec S1700000 32) : FVec Ideal S1700000x128 .f32 :=
  Host.gather gather_S100000x128_S1700000x1_S1700000x128_1_0_n_n_0_1_1128 h (wrapRows r)

/-- The edge weights as a 1700000 × 1 column. -/
def weightsColumn (w : FVec Ideal S1700000 .f32) : FVec Ideal S1700000x1 .f32 :=
  shapeCast S1700000x1 w shapeCasts_S1700000_S1700000x1

/-- A bias vector as a 1 × 128 row. -/
def biasRow (b : FVec Ideal S128 .f32) : FVec Ideal S1x128 .f32 := shapeCast S1x128 b shapeCasts_S128_S1x128

/-- The rows of all edges added up at their targets, from zero. -/
def sumAtTargets (c : IVec S1700000 32) (msg : FVec Ideal S1700000x128 .f32) : FVec Ideal S100000x128 .f32 :=
  Host.scatterAdd scatter_S100000x128_S1700000x1_S1700000x128_1_0_0_1
    (broadcastInDim S100000x128 ![] bcast_S_S100000x128 (constant S_ .f32 0x00000000#32)) (asColumn c) msg

/-- One layer before its bias: features times the matrix, the source rows weighted, summed at the targets. -/
def propagate (r c : IVec S1700000 32) (w : FVec Ideal S1700000 .f32) (hin : FVec Ideal S100000x128 .f32)
    (wt : FVec Ideal S128x128 .f32) : FVec Ideal S100000x128 .f32 :=
  sumAtTargets c (scaleRows (rowsAtSources (rowsByCols hin wt) r) (weightsColumn w))

/-- The whole network: two layers with bias and maximum with zero, a third with bias only. -/
def network (x0 : FVec Ideal S100000x128 .f32) (x1 : FVec Ideal S128x128 .f32) (x2 : FVec Ideal S128 .f32)
    (x3 : FVec Ideal S128x128 .f32) (x4 : FVec Ideal S128 .f32) (x5 : FVec Ideal S128x128 .f32) (x6 : FVec Ideal S128 .f32)
    (ei : IVec S2x1600000 32) : FVec Ideal S100000x128 .f32 :=
  let r := sourcesWithLoops ei
  let c := targetsWithLoops ei
  let w := edgeWeights r c
  addRow (propagate r c w (addRowRelu (propagate r c w (addRowRelu (propagate r c w x0 x1) (biasRow x2)) x3) (biasRow x4)) x5) (biasRow x6)

end Cert.Gcn

end
-- ==== Proof.Carried.lean ====
import proofs.«426999_j59536836657839_1_alg».proof.Proof.Network

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ) (ρ : Dev nD → PrngReg)

/-- What every layer reads and no layer writes: the sources and targets of the edges with their self loops and the edge
    weights, computed once before the first region, and the parameters of the layers, as launched. -/
structure Carried (c : Dev nD) (W : Valuation τ sig (Elt Ideal)) : Prop where
  sources : W (Proc.devRef .tc main_v5) = sourcesWithLoops (m ((c.tc : Thread nD τ).loc main_arg7))
  targets : W (Proc.devRef .tc main_v6) = targetsWithLoops (m ((c.tc : Thread nD τ).loc main_arg7))
  weights : W (Proc.devRef .tc main_v31)
    = edgeWeights (sourcesWithLoops (m ((c.tc : Thread nD τ).loc main_arg7))) (targetsWithLoops (m ((c.tc : Thread nD τ).loc main_arg7)))
  bias1 : W (Proc.devRef .tc main_arg2) = m ((c.tc : Thread nD τ).loc main_arg2)
  matrix2 : W (Proc.devRef .tc main_arg3) = m ((c.tc : Thread nD τ).loc main_arg3)
  bias2 : W (Proc.devRef .tc main_arg4) = m ((c.tc : Thread nD τ).loc main_arg4)
  matrix3 : W (Proc.devRef .tc main_arg5) = m ((c.tc : Thread nD τ).loc main_arg5)
  bias3 : W (Proc.devRef .tc main_arg6) = m ((c.tc : Thread nD τ).loc main_arg6)

/-- Closes "no operation of this stretch of host operations writes that buffer": the stretch is a literal list, each
    operation writes one named buffer, and the names differ. -/
macro "stretch_writes_none" : tactic => `(tactic| (
    refine List.forall_iff_forall_mem.mp ?_
    simp only [hostOps0, hostOps0_1, hostOps0_2, hostOps1, hostOps1_1, hostOps2, hostOps4, hostOps4_1, hostOps5, hostOps7,
      hostOps7_1, hostOps8, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- Closes "after this stretch the buffer holds what it held before it". -/
macro "kept_by_stretch" : tactic => `(tactic| exact StableHlo.after_of_forall_not_mem _ _ (by stretch_writes_none))

/-! At the first region's entry. The host operations before it, in three stretches: the first computes the two index
    vectors and the degrees, the second chooses d^(-1/2) or zero, the third gathers the two factors and multiplies. -/

/-- After the first stretch: the sources. -/
private theorem sources1 (c : Dev nD) : W1 m ρ c (Proc.devRef .tc main_v5) = sourcesWithLoops (m ((c.tc : Thread nD τ).loc main_arg7)) := by
  show StableHlo.after hostOps0 (W0 m ρ c) (Proc.devRef .tc main_v5) = _
  after_results
  rfl

/-- After the first stretch: the targets. -/
private theorem targets1 (c : Dev nD) : W1 m ρ c (Proc.devRef .tc main_v6) = targetsWithLoops (m ((c.tc : Thread nD τ).loc main_arg7)) := by
  show StableHlo.after hostOps0 (W0 m ρ c) (Proc.devRef .tc main_v6) = _
  after_results
  rfl

/-- After the first stretch: which nodes have a positive degree. -/
private theorem positive1 (c : Dev nD) : W1 m ρ c (Proc.devRef .tc main_v12)
    = cmpf .ogt (degrees (targetsWithLoops (m ((c.tc : Thread nD τ).loc main_arg7))))
        (broadcastInDim S100000 ![] bcast_S_S100000 (constant S_ .f32 0x00000000#32)) := by
  show StableHlo.after hostOps0 (W0 m ρ c) (Proc.devRef .tc main_v12) = _
  after_results
  rfl

/-- After the first stretch: the degrees, kept away from zero, to the power -1/2. -/
private theorem rsqrt1 (c : Dev nD) : W1 m ρ c (Proc.devRef .tc main_v15)
    = Host.rsqrt (maximumf (degrees (targetsWithLoops (m ((c.tc : Thread nD τ).loc main_arg7))))
        (broadcastInDim S100000 ![] bcast_S_S100000 (constant S_ .f32 0x0DA24260#32))) := by
  show StableHlo.after hostOps0 (W0 m ρ c) (Proc.devRef .tc main_v15) = _
  after_results
  rfl

/-- After the first stretch: the constant zero. -/
private theorem zero1 (c : Dev nD) : W1 m ρ c (Proc.devRef .tc main_cst_3) = (constant S_ .f32 0x00000000#32 : FVec Ideal S_ .f32) := by
  show StableHlo.after hostOps0 (W0 m ρ c) (Proc.devRef .tc main_cst_3) = _
  after_results

/-- After the second stretch: d^(-1/2) at the nodes of positive degree, zero elsewhere. -/
private theorem invSqrt2 (c : Dev nD) : W2 m ρ c (Proc.devRef .tc main_v16) = invSqrtDegrees (targetsWithLoops (m ((c.tc : Thread nD τ).loc main_arg7))) := by
  show StableHlo.after hostOps0_1 (W1 m ρ c) (Proc.devRef .tc main_v16) = _
  generalize hW : W1 m ρ c = Wv
  after_results
  simp only [Cert.GraphConv.ofBuf_toBuf]
  rw [← hW]
  simp only [TRef.ofBuf, TRef.toBuf, cast_eq]
  rw [positive1 m ρ c, rsqrt1 m ρ c, zero1 m ρ c]
  rfl

/-- The second stretch writes neither index vector. -/
private theorem sources2 (c : Dev nD) : W2 m ρ c (Proc.devRef .tc main_v5) = sourcesWithLoops (m ((c.tc : Thread nD τ).loc main_arg7)) :=
  (StableHlo.after_of_forall_not_mem (b := Proc.devRef .tc main_v5) _ _ (by stretch_writes_none)).trans (sources1 m ρ c)
private theorem targets2 (c : Dev nD) : W2 m ρ c (Proc.devRef .tc main_v6) = targetsWithLoops (m ((c.tc : Thread nD τ).loc main_arg7)) :=
  (StableHlo.after_of_forall_not_mem (b := Proc.devRef .tc main_v6) _ _ (by stretch_writes_none)).trans (targets1 m ρ c)

set_option maxHeartbeats 4000000 in
/-- After the third stretch: the product of the two factors gathered at the (wrapped) sources and targets. -/
private theorem weights3 (c : Dev nD) : W3 m ρ c (Proc.devRef .tc main_v31)
    = edgeWeights (sourcesWithLoops (m ((c.tc : Thread nD τ).loc main_arg7))) (targetsWithLoops (m ((c.tc : Thread nD τ).loc main_arg7))) := by
  show StableHlo.after hostOps0_2 (W2 m ρ c) (Proc.devRef .tc main_v31) = _
  generalize hW : W2 m ρ c = Wv
  after_results
  rw [← hW, sources2 m ρ c, targets2 m ρ c, invSqrt2 m ρ c]
  rfl

/-- A buffer none of the three stretches writes holds at the first region's entry what it held at launch. -/
private theorem entry_kept (c : Dev nD) (b : Ref sig .tc)
    (h0 : ∀ op ∈ (hostOps0 : List (HloOp τ sig (Elt Ideal))), Proc.devRef .tc b ∉ op.writes)
    (h1 : ∀ op ∈ (hostOps0_1 : List (HloOp τ sig (Elt Ideal))), Proc.devRef .tc b ∉ op.writes)
    (h2 : ∀ op ∈ (hostOps0_2 : List (HloOp τ sig (Elt Ideal))), Proc.devRef .tc b ∉ op.writes) :
    W3 m ρ c (Proc.devRef .tc b) = m ((c.tc : Thread nD τ).loc b) :=
  (StableHlo.after_of_forall_not_mem _ _ h2).trans
    ((StableHlo.after_of_forall_not_mem _ _ h1).trans (StableHlo.after_of_forall_not_mem _ _ h0))

/-- At the first region's entry: the three vectors are what the host operations before it compute from the edge array,
    and the first layer's features and matrix are as launched. -/
theorem carried3 (c : Dev nD) : Carried m c (W3 m ρ c) :=
  ⟨(StableHlo.after_of_forall_not_mem (b := Proc.devRef .tc main_v5) _ _ (by stretch_writes_none)).trans (sources2 m ρ c),
    (StableHlo.after_of_forall_not_mem (b := Proc.devRef .tc main_v6) _ _ (by stretch_writes_none)).trans (targets2 m ρ c),
    weights3 m ρ c,
    entry_kept m ρ c main_arg2 (by stretch_writes_none) (by stretch_writes_none) (by stretch_writes_none),
    entry_kept m ρ c main_arg3 (by stretch_writes_none) (by stretch_writes_none) (by stretch_writes_none),
    entry_kept m ρ c main_arg4 (by stretch_writes_none) (by stretch_writes_none) (by stretch_writes_none),
    entry_kept m ρ c main_arg5 (by stretch_writes_none) (by stretch_writes_none) (by stretch_writes_none),
    entry_kept m ρ c main_arg6 (by stretch_writes_none) (by stretch_writes_none) (by stretch_writes_none)⟩
theorem entry_features (c : Dev nD) : W3 m ρ c (Proc.devRef .tc main_arg0) = m ((c.tc : Thread nD τ).loc main_arg0) :=
  entry_kept m ρ c main_arg0 (by stretch_writes_none) (by stretch_writes_none) (by stretch_writes_none)
theorem entry_matrix1 (c : Dev nD) : W3 m ρ c (Proc.devRef .tc main_arg1) = m ((c.tc : Thread nD τ).loc main_arg1) :=
  entry_kept m ρ c main_arg1 (by stretch_writes_none) (by stretch_writes_none) (by stretch_writes_none)

/-- The eight facts pass from one boundary to another at which each of the eight buffers holds what it held. -/
private theorem carried_of_eq {c : Dev nD} {W W' : Valuation τ sig (Elt Ideal)} (h : Carried m c W)
    (e5 : W' (Proc.devRef .tc main_v5) = W (Proc.devRef .tc main_v5))
    (e6 : W' (Proc.devRef .tc main_v6) = W (Proc.devRef .tc main_v6))
    (e31 : W' (Proc.devRef .tc main_v31) = W (Proc.devRef .tc main_v31))
    (a2 : W' (Proc.devRef .tc main_arg2) = W (Proc.devRef .tc main_arg2))
    (a3 : W' (Proc.devRef .tc main_arg3) = W (Proc.devRef .tc main_arg3))
    (a4 : W' (Proc.devRef .tc main_arg4) = W (Proc.devRef .tc main_arg4))
    (a5 : W' (Proc.devRef .tc main_arg5) = W (Proc.devRef .tc main_arg5))
    (a6 : W' (Proc.devRef .tc main_arg6) = W (Proc.devRef .tc main_arg6)) : Carried m c W' :=
  ⟨e5.trans h.sources, e6.trans h.targets, e31.trans h.weights, a2.trans h.bias1, a3.trans h.matrix2, a4.trans h.bias2,
    a5.trans h.matrix3, a6.trans h.bias3⟩

/-! No later host operation and no region writes any of them. -/
theorem carried4 (c : Dev nD) : Carried m c (W4 m ρ c) := by
  refine carried_of_eq m (carried3 m ρ c) ?_ ?_ ?_ ?_ ?_ ?_ ?_ ?_ <;> exact W4_of_ne m ρ c _ (by decide)
theorem carried5 (c : Dev nD) : Carried m c (W5 m ρ c) := by
  refine carried_of_eq m (carried4 m ρ c) ?_ ?_ ?_ ?_ ?_ ?_ ?_ ?_ <;> kept_by_stretch
theorem carried6 (c : Dev nD) : Carried m c (W6 m ρ c) := by
  refine carried_of_eq m (carried5 m ρ c) ?_ ?_ ?_ ?_ ?_ ?_ ?_ ?_ <;> kept_by_stretch
theorem carried7 (c : Dev nD) : Carried m c (W7 m ρ c) := by
  refine carried_of_eq m (carried6 m ρ c) ?_ ?_ ?_ ?_ ?_ ?_ ?_ ?_ <;> exact W7_of_ne m ρ c _ (by decide)
theorem carried8 (c : Dev nD) : Carried m c (W8 m ρ c) := by
  refine carried_of_eq m (carried7 m ρ c) ?_ ?_ ?_ ?_ ?_ ?_ ?_ ?_ <;> kept_by_stretch
theorem carried9 (c : Dev nD) : Carried m c (W9 m ρ c) := by
  refine carried_of_eq m (carried8 m ρ c) ?_ ?_ ?_ ?_ ?_ ?_ ?_ ?_ <;> exact W9_of_ne m ρ c _ (by decide)
theorem carried10 (c : Dev nD) : Carried m c (W10 m ρ c) := by
  refine carried_of_eq m (carried9 m ρ c) ?_ ?_ ?_ ?_ ?_ ?_ ?_ ?_ <;>
    first
    | exact W10_of_ne m ρ c _ (by decide)
    | exact (W10_arr m ρ c 1).trans (((dat3 (V9 m ρ) c).arrAt_in 1 rfl _).trans (A_eq3 (V9 m ρ) c 1))
theorem carried11 (c : Dev nD) : Carried m c (W11 m ρ c) := by
  refine carried_of_eq m (carried10 m ρ c) ?_ ?_ ?_ ?_ ?_ ?_ ?_ ?_ <;> kept_by_stretch
theorem carried12 (c : Dev nD) : Carried m c (W12 m ρ c) := by
  refine carried_of_eq m (carried11 m ρ c) ?_ ?_ ?_ ?_ ?_ ?_ ?_ ?_ <;> kept_by_stretch
theorem carried13 (c : Dev nD) : Carried m c (W13 m ρ c) := by
  refine carried_of_eq m (carried12 m ρ c) ?_ ?_ ?_ ?_ ?_ ?_ ?_ ?_ <;> exact W13_of_ne m ρ c _ (by decide)
theorem carried14 (c : Dev nD) : Carried m c (W14 m ρ c) := by
  refine carried_of_eq m (carried13 m ρ c) ?_ ?_ ?_ ?_ ?_ ?_ ?_ ?_ <;> kept_by_stretch
theorem carried15 (c : Dev nD) : Carried m c (W15 m ρ c) := by
  refine carried_of_eq m (carried14 m ρ c) ?_ ?_ ?_ ?_ ?_ ?_ ?_ ?_ <;> exact W15_of_ne m ρ c _ (by decide)
theorem carried16 (c : Dev nD) : Carried m c (W16 m ρ c) := by
  refine carried_of_eq m (carried15 m ρ c) ?_ ?_ ?_ ?_ ?_ ?_ ?_ ?_ <;>
    first
    | exact W16_of_ne m ρ c _ (by decide)
    | exact (W16_arr m ρ c 1).trans (((dat6 (V15 m ρ) c).arrAt_in 1 rfl _).trans (A_eq6 (V15 m ρ) c 1))
theorem carried17 (c : Dev nD) : Carried m c (W17 m ρ c) := by
  refine carried_of_eq m (carried16 m ρ c) ?_ ?_ ?_ ?_ ?_ ?_ ?_ ?_ <;> kept_by_stretch
theorem carried18 (c : Dev nD) : Carried m c (W18 m ρ c) := by
  refine carried_of_eq m (carried17 m ρ c) ?_ ?_ ?_ ?_ ?_ ?_ ?_ ?_ <;> kept_by_stretch
theorem carried19 (c : Dev nD) : Carried m c (W19 m ρ c) := by
  refine carried_of_eq m (carried18 m ρ c) ?_ ?_ ?_ ?_ ?_ ?_ ?_ ?_ <;> exact W19_of_ne m ρ c _ (by decide)
theorem carried20 (c : Dev nD) : Carried m c (W20 m ρ c) := by
  refine carried_of_eq m (carried19 m ρ c) ?_ ?_ ?_ ?_ ?_ ?_ ?_ ?_ <;> kept_by_stretch

end Cert.Gcn

end
-- ==== Proof.KernelLayer1.lean ====
import proofs.«426999_j59536836657839_1_alg».proof.Proof.Carried

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

/-- Closes "no operation of this stretch of host operations writes that buffer": the stretch is a literal list, each
    operation writes one named buffer, and the names differ. -/
macro "no_write" : tactic => `(tactic| (
    refine List.forall_iff_forall_mem.mp ?_
    simp only [hostOps0, hostOps0_1, hostOps0_2, hostOps1, hostOps1_1, hostOps2, hostOps4, hostOps4_1, hostOps5, hostOps7,
      hostOps7_1, hostOps8, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

variable [hPre : Cert.Pre_finite_inputs.Facts]
variable (m : (ℓ : Loc nD τ sig) → Buf (Elt Ideal) ℓ) (ρ : Dev nD → PrngReg) (hpre : Cert.Pre_KernelIdeal m)
include hpre

/-! ## Layer 1 -/

set_option maxHeartbeats 1000000 in
/-- After the layer's first region: the features times the layer's matrix. -/
theorem product1 (c : Dev nD) : W4 m ρ c (Proc.devRef .tc main_v32) = rowsByCols (m ((c.tc : Thread nD τ).loc main_arg0)) (m ((c.tc : Thread nD τ).loc main_arg1)) := by
  have written := W4_arr m ρ c 2
  have tiled := region0_final (V3 m ρ) c
  refine written.trans (tiled.trans ?_)
  show rowsByCols (W3 m ρ c (Proc.devRef .tc main_arg0)) (W3 m ρ c (Proc.devRef .tc main_arg1)) = _
  rw [entry_features m ρ c, entry_matrix1 m ρ c]

/-- The rows of that product at the edges' sources: every index is a node, so the in-bounds test of the take passes
    everywhere. -/
theorem atSources1 (c : Dev nD) : W5 m ρ c (Proc.devRef .tc main_v33) = rowsAtSources (rowsByCols (m ((c.tc : Thread nD τ).loc main_arg0)) (m ((c.tc : Thread nD τ).loc main_arg1))) (sourcesWithLoops (m ((c.tc : Thread nD τ).loc main_arg7))) := by
  have hr : InRangeT (W4 m ρ c (Proc.devRef .tc main_v5)) := by
    rw [(carried4 m ρ c).sources]
    exact fun e => sourcesWithLoops_inRange _ (edges_are_nodes m hpre c) e
  show StableHlo.after hostOps1 (W4 m ρ c) (Proc.devRef .tc main_v33) = _
  rw [take_rows1 (W4 m ρ c) hr, product1 m ρ hpre c, (carried4 m ρ c).sources]
  rfl

/-- The reshape of the weights that follows leaves those rows alone. -/
theorem atSources1_kept (c : Dev nD) : W6 m ρ c (Proc.devRef .tc main_v33) = rowsAtSources (rowsByCols (m ((c.tc : Thread nD τ).loc main_arg0)) (m ((c.tc : Thread nD τ).loc main_arg1))) (sourcesWithLoops (m ((c.tc : Thread nD τ).loc main_arg7))) :=
  (StableHlo.after_of_forall_not_mem (b := (Proc.devRef .tc main_v33)) _ _ (by no_write)).trans (atSources1 m ρ hpre c)

/-- The edge weights reshaped to a column. -/
theorem column1 (c : Dev nD) : W6 m ρ c (Proc.devRef .tc main_v34) = weightsColumn (edgeWeights (sourcesWithLoops (m ((c.tc : Thread nD τ).loc main_arg7))) (targetsWithLoops (m ((c.tc : Thread nD τ).loc main_arg7)))) := by
  show StableHlo.after hostOps1_1 (W5 m ρ c) (Proc.devRef .tc main_v34) = _
  generalize hW : W5 m ρ c = Wv
  after_results
  rw [← hW, (carried5 m ρ c).weights]
  rfl

set_option maxHeartbeats 1000000 in
/-- After the layer's second region: every source row scaled by its edge's weight. -/
theorem messages1 (c : Dev nD) : W7 m ρ c (Proc.devRef .tc main_v35) = scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))) := by
  have written := W7_arr m ρ c 2
  have tiled := region1_final (V6 m ρ) c
  refine written.trans (tiled.trans ?_)
  show scaleRows (W6 m ρ c (Proc.devRef .tc main_v33)) (W6 m ρ c (Proc.devRef .tc main_v34)) = _
  rw [atSources1_kept m ρ hpre c, column1 m ρ hpre c]

/-- The scaled rows added up at the edges' targets. -/
theorem summed1 (c : Dev nD) : W8 m ρ c (Proc.devRef .tc main_v38) = sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7)))))) := by
  show StableHlo.after hostOps2 (W7 m ρ c) (Proc.devRef .tc main_v38) = _
  after_results
  rw [messages1 m ρ hpre c, (carried7 m ρ c).targets]
  rfl

/-- The layer's bias reshaped to a row. -/
theorem biasRow1 (c : Dev nD) : W8 m ρ c (Proc.devRef .tc main_v39) = biasRow (m ((c.tc : Thread nD τ).loc main_arg2)) := by
  show StableHlo.after hostOps2 (W7 m ρ c) (Proc.devRef .tc main_v39) = _
  after_results
  rw [(carried7 m ρ c).bias1]
  rfl

set_option maxHeartbeats 1000000 in
/-- After the layer's third region: the bias added, then the maximum with zero. -/
theorem layer1 (c : Dev nD) : W9 m ρ c (Proc.devRef .tc main_v40) = addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2))) := by
  have written := W9_arr m ρ c 2
  have tiled := region2_final (V8 m ρ) c
  refine written.trans (tiled.trans ?_)
  show addRowRelu (W8 m ρ c (Proc.devRef .tc main_v38)) (W8 m ρ c (Proc.devRef .tc main_v39)) = _
  rw [summed1 m ρ hpre c, biasRow1 m ρ hpre c]

end Cert.Gcn

end
-- ==== Proof.KernelLayer2.lean ====
import proofs.«426999_j59536836657839_1_alg».proof.Proof.KernelLayer1

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

variable [hPre : Cert.Pre_finite_inputs.Facts]
variable (m : (ℓ : Loc nD τ sig) → Buf (Elt Ideal) ℓ) (ρ : Dev nD → PrngReg) (hpre : Cert.Pre_KernelIdeal m)
include hpre

/-! ## Layer 2 -/

set_option maxHeartbeats 1000000 in
/-- After the layer's first region: the features times the layer's matrix. -/
theorem product2 (c : Dev nD) : W10 m ρ c (Proc.devRef .tc main_v41) = rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3)) := by
  have written := W10_arr m ρ c 2
  have tiled := region3_final (V9 m ρ) c
  refine written.trans (tiled.trans ?_)
  show rowsByCols (W9 m ρ c (Proc.devRef .tc main_v40)) (W9 m ρ c (Proc.devRef .tc main_arg3)) = _
  rw [layer1 m ρ hpre c, (carried9 m ρ c).matrix2]

/-- The rows of that product at the edges' sources: every index is a node, so the in-bounds test of the take passes
    everywhere. -/
theorem atSources2 (c : Dev nD) : W11 m ρ c (Proc.devRef .tc main_v42) = rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7))) := by
  have hr : InRangeT (W10 m ρ c (Proc.devRef .tc main_v5)) := by
    rw [(carried10 m ρ c).sources]
    exact fun e => sourcesWithLoops_inRange _ (edges_are_nodes m hpre c) e
  show StableHlo.after hostOps4 (W10 m ρ c) (Proc.devRef .tc main_v42) = _
  rw [take_rows2 (W10 m ρ c) hr, product2 m ρ hpre c, (carried10 m ρ c).sources]
  rfl

/-- The reshape of the weights that follows leaves those rows alone. -/
theorem atSources2_kept (c : Dev nD) : W12 m ρ c (Proc.devRef .tc main_v42) = rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7))) :=
  (StableHlo.after_of_forall_not_mem (b := (Proc.devRef .tc main_v42)) _ _ (by no_write)).trans (atSources2 m ρ hpre c)

/-- The edge weights reshaped to a column. -/
theorem column2 (c : Dev nD) : W12 m ρ c (Proc.devRef .tc main_v43) = weightsColumn (edgeWeights (sourcesWithLoops (m ((c.tc : Thread nD τ).loc main_arg7))) (targetsWithLoops (m ((c.tc : Thread nD τ).loc main_arg7)))) := by
  show StableHlo.after hostOps4_1 (W11 m ρ c) (Proc.devRef .tc main_v43) = _
  generalize hW : W11 m ρ c = Wv
  after_results
  rw [← hW, (carried11 m ρ c).weights]
  rfl

set_option maxHeartbeats 1000000 in
/-- After the layer's second region: every source row scaled by its edge's weight. -/
theorem messages2 (c : Dev nD) : W13 m ρ c (Proc.devRef .tc main_v44) = scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))) := by
  have written := W13_arr m ρ c 2
  have tiled := region4_final (V12 m ρ) c
  refine written.trans (tiled.trans ?_)
  show scaleRows (W12 m ρ c (Proc.devRef .tc main_v42)) (W12 m ρ c (Proc.devRef .tc main_v43)) = _
  rw [atSources2_kept m ρ hpre c, column2 m ρ hpre c]

/-- The scaled rows added up at the edges' targets. -/
theorem summed2 (c : Dev nD) : W14 m ρ c (Proc.devRef .tc main_v47) = sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7)))))) := by
  show StableHlo.after hostOps5 (W13 m ρ c) (Proc.devRef .tc main_v47) = _
  after_results
  rw [messages2 m ρ hpre c, (carried13 m ρ c).targets]
  rfl

/-- The layer's bias reshaped to a row. -/
theorem biasRow2 (c : Dev nD) : W14 m ρ c (Proc.devRef .tc main_v48) = biasRow (m ((c.tc : Thread nD τ).loc main_arg4)) := by
  show StableHlo.after hostOps5 (W13 m ρ c) (Proc.devRef .tc main_v48) = _
  after_results
  rw [(carried13 m ρ c).bias2]
  rfl

set_option maxHeartbeats 1000000 in
/-- After the layer's third region: the bias added, then the maximum with zero. -/
theorem layer2 (c : Dev nD) : W15 m ρ c (Proc.devRef .tc main_v49) = addRowRelu (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg4))) := by
  have written := W15_arr m ρ c 2
  have tiled := region5_final (V14 m ρ) c
  refine written.trans (tiled.trans ?_)
  show addRowRelu (W14 m ρ c (Proc.devRef .tc main_v47)) (W14 m ρ c (Proc.devRef .tc main_v48)) = _
  rw [summed2 m ρ hpre c, biasRow2 m ρ hpre c]

end Cert.Gcn

end
-- ==== Proof.KernelLayer3.lean ====
import proofs.«426999_j59536836657839_1_alg».proof.Proof.KernelLayer2

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

variable [hPre : Cert.Pre_finite_inputs.Facts]
variable (m : (ℓ : Loc nD τ sig) → Buf (Elt Ideal) ℓ) (ρ : Dev nD → PrngReg) (hpre : Cert.Pre_KernelIdeal m)
include hpre

/-! ## Layer 3 -/

set_option maxHeartbeats 1000000 in
/-- After the layer's first region: the features times the layer's matrix. -/
theorem product3 (c : Dev nD) : W16 m ρ c (Proc.devRef .tc main_v50) = rowsByCols (addRowRelu (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg4)))) (m ((c.tc : Thread nD τ).loc main_arg5)) := by
  have written := W16_arr m ρ c 2
  have tiled := region6_final (V15 m ρ) c
  refine written.trans (tiled.trans ?_)
  show rowsByCols (W15 m ρ c (Proc.devRef .tc main_v49)) (W15 m ρ c (Proc.devRef .tc main_arg5)) = _
  rw [layer2 m ρ hpre c, (carried15 m ρ c).matrix3]

/-- The rows of that product at the edges' sources: every index is a node, so the in-bounds test of the take passes
    everywhere. -/
theorem atSources3 (c : Dev nD) : W17 m ρ c (Proc.devRef .tc main_v51) = rowsAtSources (rowsByCols (addRowRelu (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg4)))) (m ((c.tc : Thread nD τ).loc main_arg5))) (sourcesWithLoops (m ((c.tc : Thread nD τ).loc main_arg7))) := by
  have hr : InRangeT (W16 m ρ c (Proc.devRef .tc main_v5)) := by
    rw [(carried16 m ρ c).sources]
    exact fun e => sourcesWithLoops_inRange _ (edges_are_nodes m hpre c) e
  show StableHlo.after hostOps7 (W16 m ρ c) (Proc.devRef .tc main_v51) = _
  rw [take_rows3 (W16 m ρ c) hr, product3 m ρ hpre c, (carried16 m ρ c).sources]
  rfl

/-- The reshape of the weights that follows leaves those rows alone. -/
theorem atSources3_kept (c : Dev nD) : W18 m ρ c (Proc.devRef .tc main_v51) = rowsAtSources (rowsByCols (addRowRelu (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg4)))) (m ((c.tc : Thread nD τ).loc main_arg5))) (sourcesWithLoops (m ((c.tc : Thread nD τ).loc main_arg7))) :=
  (StableHlo.after_of_forall_not_mem (b := (Proc.devRef .tc main_v51)) _ _ (by no_write)).trans (atSources3 m ρ hpre c)

/-- The edge weights reshaped to a column. -/
theorem column3 (c : Dev nD) : W18 m ρ c (Proc.devRef .tc main_v52) = weightsColumn (edgeWeights (sourcesWithLoops (m ((c.tc : Thread nD τ).loc main_arg7))) (targetsWithLoops (m ((c.tc : Thread nD τ).loc main_arg7)))) := by
  show StableHlo.after hostOps7_1 (W17 m ρ c) (Proc.devRef .tc main_v52) = _
  generalize hW : W17 m ρ c = Wv
  after_results
  rw [← hW, (carried17 m ρ c).weights]
  rfl

set_option maxHeartbeats 1000000 in
/-- After the layer's second region: every source row scaled by its edge's weight. -/
theorem messages3 (c : Dev nD) : W19 m ρ c (Proc.devRef .tc main_v53) = scaleRows (rowsAtSources (rowsByCols (addRowRelu (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg4)))) (m ((c.tc : Thread nD τ).loc main_arg5))) (sourcesWithLoops (m ((c.tc : Thread nD τ).loc main_arg7)))) (weightsColumn (edgeWeights (sourcesWithLoops (m ((c.tc : Thread nD τ).loc main_arg7))) (targetsWithLoops (m ((c.tc : Thread nD τ).loc main_arg7))))) := by
  have written := W19_arr m ρ c 2
  have tiled := region7_final (V18 m ρ) c
  refine written.trans (tiled.trans ?_)
  show scaleRows (W18 m ρ c (Proc.devRef .tc main_v51)) (W18 m ρ c (Proc.devRef .tc main_v52)) = _
  rw [atSources3_kept m ρ hpre c, column3 m ρ hpre c]

/-- The scaled rows added up at the edges' targets. -/
theorem summed3 (c : Dev nD) : W20 m ρ c (Proc.devRef .tc main_v56) = sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg4)))) (m ((c.tc : Thread nD τ).loc main_arg5))) (sourcesWithLoops (m ((c.tc : Thread nD τ).loc main_arg7)))) (weightsColumn (edgeWeights (sourcesWithLoops (m ((c.tc : Thread nD τ).loc main_arg7))) (targetsWithLoops (m ((c.tc : Thread nD τ).loc main_arg7)))))) := by
  show StableHlo.after hostOps8 (W19 m ρ c) (Proc.devRef .tc main_v56) = _
  after_results
  rw [messages3 m ρ hpre c, (carried19 m ρ c).targets]
  rfl

/-- The layer's bias reshaped to a row. -/
theorem biasRow3 (c : Dev nD) : W20 m ρ c (Proc.devRef .tc main_v57) = biasRow (m ((c.tc : Thread nD τ).loc main_arg6)) := by
  show StableHlo.after hostOps8 (W19 m ρ c) (Proc.devRef .tc main_v57) = _
  after_results
  rw [(carried19 m ρ c).bias3]
  rfl

set_option maxHeartbeats 1000000 in
/-- After the layer's third region: the bias added. -/
theorem layer3 (c : Dev nD) : W21 m ρ c (Proc.devRef .tc main_v58) = addRow (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (addRowRelu (sumAtTargets (targetsWithLoops (m ((c.tc : Thread nD τ).loc main_arg7))) (scaleRows (rowsAtSources (rowsByCols (m ((c.tc : Thread nD τ).loc main_arg0)) (m ((c.tc : Thread nD τ).loc main_arg1))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg2)))) (m ((c.tc : Thread nD τ).loc main_arg3))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg4)))) (m ((c.tc : Thread nD τ).loc main_arg5))) (sourcesWithLoops (m ((c.tc : Thread nD τ).loc main_arg7)))) (weightsColumn (edgeWeights (sourcesWithLoops (m ((c.tc : Thread nD τ).loc main_arg7))) (targetsWithLoops (m ((c.tc : Thread nD τ).loc main_arg7))))))) (biasRow (m ((c.tc : Thread nD τ).loc main_arg6))) := by
  have written := W21_arr m ρ c 2
  have tiled := region8_final (V20 m ρ) c
  refine written.trans (tiled.trans ?_)
  show addRow (W20 m ρ c (Proc.devRef .tc main_v56)) (W20 m ρ c (Proc.devRef .tc main_v57)) = _
  rw [summed3 m ρ hpre c, biasRow3 m ρ hpre c]

end Cert.Gcn

end
-- ==== Proof.KernelResult.lean ====
import proofs.«426999_j59536836657839_1_alg».proof.Proof.KernelLayer3

set_option maxRecDepth 16384

noncomputable section

namespace Cert.Gcn

open Idealize.ShloMosaic Idealize.ShloMosaic.TcCoe Idealize.SL.Sem Idealize.ShloMosaic.StableHlo Idealize.ShloMosaic.ValueIdx
open Cert.KernelIdeal Cert.KernelIdeal.Gen

variable [hPre : Cert.Pre_finite_inputs.Facts]
variable (m : (ℓ : Loc nD τ sig) → Buf (Elt Ideal) ℓ) (ρ : Dev nD → PrngReg) (hpre : Cert.Pre_KernelIdeal m)
include hpre

/-- The result array after the last region is the network of the eight arguments. -/
theorem kernel_result (c : Dev nD) :
    W21 m ρ c (Proc.devRef .tc main_v58)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (layer3 m ρ hpre c).trans rfl

end Cert.Gcn

end
-- ==== Proof.RefForms.lean ====
import proofs.«426999_j59536836657839_1_alg».proof.Proof.Network
import proofs.«426999_j59536836657839_1_alg».proof.ReferenceIdeal
import proofs.«426999_j59536836657839_1_alg».proof.Proof.Gen.ReferenceIdeal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.Gcn

open Idealize.ShloMosaic Idealize.ShloMosaic.TcCoe Idealize.ShloMosaic.ValueIdx

/-! # The layer maps in the reference program's spelling

The reference writes the same maps with host operations: a `dot_general`, broadcasts of the weight column and of the
bias row, an elementwise product, sum and maximum. Index by index each is the whole-array function of `Network`. -/

/-- The word of 1.0 reads as the real number 1. -/
theorem word_one : Ideal.ofBits .f32 0x3F800000#32 = 1 := by
  simp [Ideal.ofBits, Ideal.ieee, -EReal.coe_mul]; norm_num

/-- The left operand's index for result entry i and contraction index q has row coordinate the row of i … -/
theorem refDot_lhsIdx_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- … and column coordinate the contraction coordinate. -/
theorem refDot_lhsIdx_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- The right operand's index has row coordinate the contraction coordinate … -/
theorem refDot_rhsIdx_row (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- … and column coordinate the column of i. -/
theorem refDot_rhsIdx_col (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The reference's matrix product, entry by entry: row against column over the 128 shared coordinates. -/
theorem dot_eq_rowsByCols (x : FVec Ideal Cert.ReferenceIdeal.S100000x128 .f32) (w : FVec Ideal Cert.ReferenceIdeal.S128x128 .f32) :
    Host.dotGeneral Cert.ReferenceIdeal.dot_S100000x128_S128x128_S100000x128_1_0_0_1_n_n none x w = rowsByCols x w := by
  funext i
  simp only [Host.dotGeneral]
  rw [Ideal.dotGeneral_apply, ← Equiv.sum_comp (contrEquiv1 Cert.ReferenceIdeal.dot_S100000x128_S128x128_S100000x128_1_0_0_1_n_n 128 rfl rfl).symm]
  show _ = ∑ k : Fin 128, x (ix2 (i 0) k) * w (ix2 k (i 1))
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((contrEquiv1 Cert.ReferenceIdeal.dot_S100000x128_S128x128_S100000x128_1_0_0_1_n_n 128 rfl rfl).symm k) = ix2 (i 0) k := funext fun a => Fin.ext (by
    match a with
    | ⟨0, _⟩ => exact refDot_lhsIdx_row _ _
    | ⟨1, _⟩ => exact (refDot_lhsIdx_col _ _).trans hk)
  have er : Cert.ReferenceIdeal.dot_S100000x128_S128x128_S100000x128_1_0_0_1_n_n.rhsIdx i ((contrEquiv1 Cert.ReferenceIdeal.dot_S100000x128_S128x128_S100000x128_1_0_0_1_n_n 128 rfl rfl).symm k) = ix2 k (i 1) := funext fun a => Fin.ext (by
    match a with
    | ⟨0, _⟩ => exact (refDot_rhsIdx_row _ _).trans hk
    | ⟨1, _⟩ => exact refDot_rhsIdx_col _ _)
  rw [el, er]
  rfl

/-- The reference scales the rows by broadcasting the weight vector to a column and the column across the 128 features. -/
theorem mul_bcast_eq_scaleRows (g : FVec Ideal Cert.ReferenceIdeal.S1700000x128 .f32) (w : FVec Ideal Cert.ReferenceIdeal.S1700000 .f32) :
    mulf g (broadcastInDim Cert.ReferenceIdeal.S1700000x128 ![0, 1] Cert.ReferenceIdeal.Facts₀.bcast_S1700000x1_S1700000x128_0_1
        (broadcastInDim Cert.ReferenceIdeal.S1700000x1 ![0] Cert.ReferenceIdeal.Facts₀.bcast_S1700000_S1700000x1_0 w))
      = scaleRows g (weightsColumn w) := by
  funext i
  obtain ⟨p, q, rfl⟩ : ∃ (p : Fin 1700000) (q : Fin 128), i = ix2 p q := ⟨i 0, i 1, eq_ix2 i⟩
  have e2 := broadcastInDim_apply ![0, 1] Cert.ReferenceIdeal.Facts₀.bcast_S1700000x1_S1700000x128_0_1
    (broadcastInDim Cert.ReferenceIdeal.S1700000x1 ![0] Cert.ReferenceIdeal.Facts₀.bcast_S1700000_S1700000x1_0 w) (ix2 p q) (ix2 p (0 : Fin 1)) (by
      intro a
      match a with
      | ⟨0, _⟩ => rfl
      | ⟨1, _⟩ => rfl)
  have e1 := broadcastInDim_apply ![0] Cert.ReferenceIdeal.Facts₀.bcast_S1700000_S1700000x1_0 w (ix2 p (0 : Fin 1)) (ix1 p) (by
      intro a
      match a with
      | ⟨0, _⟩ => rfl)
  have e3 := shapeCast_apply w Cert.KernelIdeal.Facts₀.shapeCasts_S1700000_S1700000x1 (ix2 p (0 : Fin 1)) (ix1 p) (by
      rw [Shape.rowMajor_val_two, Shape.rowMajor_val_one]; show p.val = p.val * 1 + 0; omega)
  exact congrArg (fun z => g (ix2 p q) * z) ((e2.trans e1).trans e3.symm)

/-- The reference adds the bias by broadcasting it to a row and the row down the 100000 nodes, then takes the maximum
    with a broadcast zero. -/
theorem add_bcast_max_eq_addRowRelu (a : FVec Ideal Cert.ReferenceIdeal.S100000x128 .f32) (b : FVec Ideal Cert.ReferenceIdeal.S128 .f32) :
    maximumf (addf a (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 b)))
        (broadcastInDim Cert.ReferenceIdeal.S100000x128 ![] Cert.ReferenceIdeal.Facts₀.bcast_S_S100000x128 (constant (F := Ideal) Cert.ReferenceIdeal.S_ .f32 0x00000000#32))
      = addRowRelu a (biasRow b) := by
  funext i
  obtain ⟨p, q, rfl⟩ : ∃ (p : Fin 100000) (q : Fin 128), i = ix2 p q := ⟨i 0, i 1, eq_ix2 i⟩
  have e2 := broadcastInDim_apply ![0, 1] Cert.ReferenceIdeal.Facts₀.bcast_S1x128_S100000x128_0_1
    (broadcastInDim Cert.ReferenceIdeal.S1x128 ![1] Cert.ReferenceIdeal.Facts₀.bcast_S128_S1x128_1 b) (ix2 p q) (ix2 (0 : Fin 1) q) (by
      intro a
      match a with
      | ⟨0, _⟩ => rfl
      | ⟨1, _⟩ => rfl)
  have e1 := broadcastInDim_apply ![1] Cert.ReferenceIdeal.Facts₀.bcast_S128_S1x128_1 b (ix2 (0 : Fin 1) q) (ix1 q) (by
      intro a
      match a with
      | ⟨0, _⟩ => rfl)
  have e3 := shapeCast_apply b Cert.KernelIdeal.Facts₀.shapeCasts_S128_S1x128 (ix2 (0 : Fin 1) q) (ix1 q) (by
      rw [Shape.rowMajor_val_two, Shape.rowMajor_val_one]; show q.val = 0 * 128 + q.val; omega)
  have e0 := broadcastInDim_apply ![] Cert.ReferenceIdeal.Facts₀.bcast_S_S100000x128 (constant (F := Ideal) Cert.ReferenceIdeal.S_ .f32 0x00000000#32)
    (ix2 p q) ix0 (fun a => a.elim0)
  exact congrArg₂ max (congrArg (fun z => a (ix2 p q) + z) ((e2.trans e1).trans e3.symm)) e0

/-- The last layer: the bias added, no maximum. -/
theorem add_bcast_eq_addRow (a : FVec Ideal Cert.ReferenceIdeal.S100000x128 .f32) (b : FVec Ideal Cert.ReferenceIdeal.S128 .f32) :
    addf a (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 b))
      = addRow a (biasRow b) := by
  funext i
  obtain ⟨p, q, rfl⟩ : ∃ (p : Fin 100000) (q : Fin 128), i = ix2 p q := ⟨i 0, i 1, eq_ix2 i⟩
  have e2 := broadcastInDim_apply ![0, 1] Cert.ReferenceIdeal.Facts₀.bcast_S1x128_S100000x128_0_1
    (broadcastInDim Cert.ReferenceIdeal.S1x128 ![1] Cert.ReferenceIdeal.Facts₀.bcast_S128_S1x128_1 b) (ix2 p q) (ix2 (0 : Fin 1) q) (by
      intro a
      match a with
      | ⟨0, _⟩ => rfl
      | ⟨1, _⟩ => rfl)
  have e1 := broadcastInDim_apply ![1] Cert.ReferenceIdeal.Facts₀.bcast_S128_S1x128_1 b (ix2 (0 : Fin 1) q) (ix1 q) (by
      intro a
      match a with
      | ⟨0, _⟩ => rfl)
  have e3 := shapeCast_apply b Cert.KernelIdeal.Facts₀.shapeCasts_S128_S1x128 (ix2 (0 : Fin 1) q) (ix1 q) (by
      rw [Shape.rowMajor_val_two, Shape.rowMajor_val_one]; show q.val = 0 * 128 + q.val; omega)
  exact congrArg (fun z => a (ix2 p q) + z) ((e2.trans e1).trans e3.symm)

/-- The reference multiplies the first factor of an edge weight by a vector of ones: over the extended reals that changes nothing. -/
theorem mul_ones (a b : FVec Ideal Cert.ReferenceIdeal.S1700000 .f32) :
    mulf (mulf a (broadcastInDim Cert.ReferenceIdeal.S1700000 ![] Cert.ReferenceIdeal.Facts₀.bcast_S_S1700000 (constant (F := Ideal) Cert.ReferenceIdeal.S_ .f32 0x3F800000#32))) b = mulf a b := by
  funext i
  have e0 := broadcastInDim_apply ![] Cert.ReferenceIdeal.Facts₀.bcast_S_S1700000 (constant (F := Ideal) Cert.ReferenceIdeal.S_ .f32 0x3F800000#32)
    i ix0 (fun a => a.elim0)
  show a i * _ * b i = a i * b i
  rw [e0, constant_apply, word_one, mul_one]

end Cert.Gcn

end
-- ==== Proof.RefBridge.lean ====
import proofs.«426999_j59536836657839_1_alg».proof.Proof.RefRead
import proofs.«426999_j59536836657839_1_alg».proof.Proof.RefForms

set_option maxRecDepth 16384

noncomputable section

namespace Cert.Gcn

open Idealize.ShloMosaic Idealize.ShloMosaic.TcCoe Idealize.ShloMosaic.ValueIdx
open Cert.ReferenceIdeal.ReadP

/-! # The reference program's result is the network

The reference computes, operation by operation, the same three layers; it recomputes the sources, targets and edge
weights in every layer, from the same edge array by the same operations. -/

section Stages

variable (x0 : (⟨Cert.ReferenceIdeal.S100000x128, .f32⟩ : BufTy).Contents (Elt Ideal))
  (x1 : (⟨Cert.ReferenceIdeal.S128x128, .f32⟩ : BufTy).Contents (Elt Ideal))
  (x2 : (⟨Cert.ReferenceIdeal.S128, .f32⟩ : BufTy).Contents (Elt Ideal))
  (x3 : (⟨Cert.ReferenceIdeal.S128x128, .f32⟩ : BufTy).Contents (Elt Ideal))
  (x4 : (⟨Cert.ReferenceIdeal.S128, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 : (⟨Cert.ReferenceIdeal.S2x1600000, .i32⟩ : BufTy).Contents (Elt Ideal))

/-! ## The first layer's stages -/

/-- The first layer's source indices are the first row of the edge array followed by the self loops. -/
theorem sources_stage1 : val_main_v6 (F := Ideal) x7 = sourcesWithLoops x7 := by
  unfold val_main_v6 val_main_v1 val_main_v0 val_main_v5 sourcesWithLoops
  rfl

/-- The first layer's target indices are the second row of the edge array followed by the self loops. -/
theorem targets_stage1 : val_main_v7 (F := Ideal) x7 = targetsWithLoops x7 := by
  unfold val_main_v7 val_main_v3 val_main_v2 val_main_v5 targetsWithLoops
  rfl

/-- The first layer's scatter of ones at the targets is the degrees. -/
theorem degrees_stage1 : val_main_v11 (F := Ideal) x7 = degrees (targetsWithLoops x7) := by
  unfold val_main_v11 val_main_v9 val_main_cst_0 val_main_v10 val_main_v8 val_main_cst
  rw [targets_stage1]
  rfl

/-- The first layer's select of the reciprocal square root where the degree is positive is d^(-1/2), zero elsewhere. -/
theorem invSqrtDegrees_stage1 : val_main_v17 (F := Ideal) x7 = invSqrtDegrees (targetsWithLoops x7) := by
  unfold val_main_v17 val_main_v13 val_main_v16 val_main_v15 val_main_v12 val_main_cst_1 val_main_v14 val_main_cst_2 val_main_call0_v1 val_main_call0_v0 val_main_cst_3
  rw [degrees_stage1]
  rfl

/-- The first layer's column of source indices for the weights' first factor, a negative index moved up by 100000. -/
theorem wrappedSources_stage1 : val_main_v23 (F := Ideal) x7 = wrapRows (sourcesWithLoops x7) := by
  unfold val_main_v23 val_main_v22 val_main_v19 val_main_v21 val_main_v18 val_main_c val_main_v20 val_main_c_4
  rw [sources_stage1]
  rfl

/-- The first layer's column of target indices for the weights' second factor, a negative index moved up by 100000. -/
theorem wrappedTargets_stage1 : val_main_v31 (F := Ideal) x7 = wrapRows (targetsWithLoops x7) := by
  unfold val_main_v31 val_main_v30 val_main_v27 val_main_v29 val_main_v26 val_main_c_5 val_main_v28 val_main_c_6
  rw [targets_stage1]
  rfl

/-- The first layer's column of source indices for the feature rows, a negative index moved up by 100000. -/
theorem wrappedSources'_stage1 : val_main_v39 (F := Ideal) x7 = wrapRows (sourcesWithLoops x7) := by
  unfold val_main_v39 val_main_v38 val_main_v35 val_main_v37 val_main_v34 val_main_c_7 val_main_v36 val_main_c_8
  rw [sources_stage1]
  rfl

/-- The first layer's edge weights: the factor at the source (times a vector of ones) times the factor at the target. -/
theorem edgeWeights_stage1 :
    val_main_v33 (F := Ideal) x7 = edgeWeights (sourcesWithLoops x7) (targetsWithLoops x7) := by
  unfold val_main_v33 val_main_v25 val_main_v24 val_main_v32 val_main_v8 val_main_cst
  rw [invSqrtDegrees_stage1, wrappedSources_stage1, wrappedTargets_stage1]
  refine (mul_ones _ _).trans ?_
  rfl

/-- The first layer before its bias: the matrix product, the source rows scaled by the weights, summed at the targets. -/
theorem propagate_stage1 :
    val_main_v46 (F := Ideal) x0 x1 x7
      = propagate (sourcesWithLoops x7) (targetsWithLoops x7) (edgeWeights (sourcesWithLoops x7) (targetsWithLoops x7))
          x0 x1 := by
  unfold val_main_v46 val_main_v44 val_main_cst_9 val_main_v45 val_main_v43 val_main_v42 val_main_v41 val_main_v40 val_main_v4
  rw [targets_stage1, edgeWeights_stage1, wrappedSources'_stage1, dot_eq_rowsByCols, mul_bcast_eq_scaleRows]
  rfl

/-- The first layer's result: the bias row added, then the maximum with zero. -/
theorem layer_stage1 :
    val_main_v50 (F := Ideal) x0 x1 x2 x7
      = addRowRelu (propagate (sourcesWithLoops x7) (targetsWithLoops x7)
          (edgeWeights (sourcesWithLoops x7) (targetsWithLoops x7)) x0 x1) (biasRow x2) := by
  unfold val_main_v50 val_main_v49 val_main_v48 val_main_v47 val_main_call1_v0 val_main_call1_cst
  rw [propagate_stage1]
  exact add_bcast_max_eq_addRowRelu _ _

/-! ## The second layer's stages -/

/-- The second layer's source indices are the first row of the edge array followed by the self loops. -/
theorem sources_stage2 : val_main_v53 (F := Ideal) x7 = sourcesWithLoops x7 := by
  unfold val_main_v53 val_main_v1 val_main_v0 val_main_v52 sourcesWithLoops
  rfl

/-- The second layer's target indices are the second row of the edge array followed by the self loops. -/
theorem targets_stage2 : val_main_v54 (F := Ideal) x7 = targetsWithLoops x7 := by
  unfold val_main_v54 val_main_v3 val_main_v2 val_main_v52 targetsWithLoops
  rfl

/-- The second layer's scatter of ones at the targets is the degrees. -/
theorem degrees_stage2 : val_main_v58 (F := Ideal) x7 = degrees (targetsWithLoops x7) := by
  unfold val_main_v58 val_main_v56 val_main_cst_11 val_main_v57 val_main_v55 val_main_cst_10
  rw [targets_stage2]
  rfl

/-- The second layer's select of the reciprocal square root where the degree is positive is d^(-1/2), zero elsewhere. -/
theorem invSqrtDegrees_stage2 : val_main_v64 (F := Ideal) x7 = invSqrtDegrees (targetsWithLoops x7) := by
  unfold val_main_v64 val_main_v60 val_main_v63 val_main_v62 val_main_v59 val_main_cst_12 val_main_v61 val_main_cst_13 val_main_call2_v1 val_main_call2_v0 val_main_cst_14
  rw [degrees_stage2]
  rfl

/-- The second layer's column of source indices for the weights' first factor, a negative index moved up by 100000. -/
theorem wrappedSources_stage2 : val_main_v70 (F := Ideal) x7 = wrapRows (sourcesWithLoops x7) := by
  unfold val_main_v70 val_main_v69 val_main_v66 val_main_v68 val_main_v65 val_main_c_15 val_main_v67 val_main_c_16
  rw [sources_stage2]
  rfl

/-- The second layer's column of target indices for the weights' second factor, a negative index moved up by 100000. -/
theorem wrappedTargets_stage2 : val_main_v78 (F := Ideal) x7 = wrapRows (targetsWithLoops x7) := by
  unfold val_main_v78 val_main_v77 val_main_v74 val_main_v76 val_main_v73 val_main_c_17 val_main_v75 val_main_c_18
  rw [targets_stage2]
  rfl

/-- The second layer's column of source indices for the feature rows, a negative index moved up by 100000. -/
theorem wrappedSources'_stage2 : val_main_v86 (F := Ideal) x7 = wrapRows (sourcesWithLoops x7) := by
  unfold val_main_v86 val_main_v85 val_main_v82 val_main_v84 val_main_v81 val_main_c_19 val_main_v83 val_main_c_20
  rw [sources_stage2]
  rfl

/-- The second layer's edge weights: the factor at the source (times a vector of ones) times the factor at the target. -/
theorem edgeWeights_stage2 :
    val_main_v80 (F := Ideal) x7 = edgeWeights (sourcesWithLoops x7) (targetsWithLoops x7) := by
  unfold val_main_v80 val_main_v72 val_main_v71 val_main_v79 val_main_v55 val_main_cst_10
  rw [invSqrtDegrees_stage2, wrappedSources_stage2, wrappedTargets_stage2]
  refine (mul_ones _ _).trans ?_
  rfl

/-- The second layer before its bias: the matrix product, the source rows scaled by the weights, summed at the targets. -/
theorem propagate_stage2 :
    val_main_v93 (F := Ideal) x0 x1 x2 x3 x7
      = propagate (sourcesWithLoops x7) (targetsWithLoops x7) (edgeWeights (sourcesWithLoops x7) (targetsWithLoops x7))
          (val_main_v50 (F := Ideal) x0 x1 x2 x7) x3 := by
  unfold val_main_v93 val_main_v91 val_main_cst_21 val_main_v92 val_main_v90 val_main_v89 val_main_v88 val_main_v87 val_main_v51
  rw [targets_stage2, edgeWeights_stage2, wrappedSources'_stage2, dot_eq_rowsByCols, mul_bcast_eq_scaleRows]
  rfl

/-- The second layer's result: the bias row added, then the maximum with zero. -/
theorem layer_stage2 :
    val_main_v97 (F := Ideal) x0 x1 x2 x3 x4 x7
      = addRowRelu (propagate (sourcesWithLoops x7) (targetsWithLoops x7)
          (edgeWeights (sourcesWithLoops x7) (targetsWithLoops x7)) (val_main_v50 (F := Ideal) x0 x1 x2 x7) x3) (biasRow x4) := by
  unfold val_main_v97 val_main_v96 val_main_v95 val_main_v94 val_main_call3_v0 val_main_call3_cst
  rw [propagate_stage2]
  exact add_bcast_max_eq_addRowRelu _ _

/-! ## The third layer's stages -/

/-- The third layer's source indices are the first row of the edge array followed by the self loops. -/
theorem sources_stage3 : val_main_v100 (F := Ideal) x7 = sourcesWithLoops x7 := by
  unfold val_main_v100 val_main_v1 val_main_v0 val_main_v99 sourcesWithLoops
  rfl

/-- The third layer's target indices are the second row of the edge array followed by the self loops. -/
theorem targets_stage3 : val_main_v101 (F := Ideal) x7 = targetsWithLoops x7 := by
  unfold val_main_v101 val_main_v3 val_main_v2 val_main_v99 targetsWithLoops
  rfl

/-- The third layer's scatter of ones at the targets is the degrees. -/
theorem degrees_stage3 : val_main_v105 (F := Ideal) x7 = degrees (targetsWithLoops x7) := by
  unfold val_main_v105 val_main_v103 val_main_cst_23 val_main_v104 val_main_v102 val_main_cst_22
  rw [targets_stage3]
  rfl

/-- The third layer's select of the reciprocal square root where the degree is positive is d^(-1/2), zero elsewhere. -/
theorem invSqrtDegrees_stage3 : val_main_v111 (F := Ideal) x7 = invSqrtDegrees (targetsWithLoops x7) := by
  unfold val_main_v111 val_main_v107 val_main_v110 val_main_v109 val_main_v106 val_main_cst_24 val_main_v108 val_main_cst_25 val_main_call4_v1 val_main_call4_v0 val_main_cst_26
  rw [degrees_stage3]
  rfl

/-- The third layer's column of source indices for the weights' first factor, a negative index moved up by 100000. -/
theorem wrappedSources_stage3 : val_main_v117 (F := Ideal) x7 = wrapRows (sourcesWithLoops x7) := by
  unfold val_main_v117 val_main_v116 val_main_v113 val_main_v115 val_main_v112 val_main_c_27 val_main_v114 val_main_c_28
  rw [sources_stage3]
  rfl

/-- The third layer's column of target indices for the weights' second factor, a negative index moved up by 100000. -/
theorem wrappedTargets_stage3 : val_main_v125 (F := Ideal) x7 = wrapRows (targetsWithLoops x7) := by
  unfold val_main_v125 val_main_v124 val_main_v121 val_main_v123 val_main_v120 val_main_c_29 val_main_v122 val_main_c_30
  rw [targets_stage3]
  rfl

/-- The third layer's column of source indices for the feature rows, a negative index moved up by 100000. -/
theorem wrappedSources'_stage3 : val_main_v133 (F := Ideal) x7 = wrapRows (sourcesWithLoops x7) := by
  unfold val_main_v133 val_main_v132 val_main_v129 val_main_v131 val_main_v128 val_main_c_31 val_main_v130 val_main_c_32
  rw [sources_stage3]
  rfl

/-- The third layer's edge weights: the factor at the source (times a vector of ones) times the factor at the target. -/
theorem edgeWeights_stage3 :
    val_main_v127 (F := Ideal) x7 = edgeWeights (sourcesWithLoops x7) (targetsWithLoops x7) := by
  unfold val_main_v127 val_main_v119 val_main_v118 val_main_v126 val_main_v102 val_main_cst_22
  rw [invSqrtDegrees_stage3, wrappedSources_stage3, wrappedTargets_stage3]
  refine (mul_ones _ _).trans ?_
  rfl

/-- The third layer before its bias: the matrix product, the source rows scaled by the weights, summed at the targets. -/
theorem propagate_stage3 :
    val_main_v140 (F := Ideal) x0 x1 x2 x3 x4 x5 x7
      = propagate (sourcesWithLoops x7) (targetsWithLoops x7) (edgeWeights (sourcesWithLoops x7) (targetsWithLoops x7))
          (val_main_v97 (F := Ideal) x0 x1 x2 x3 x4 x7) x5 := by
  unfold val_main_v140 val_main_v138 val_main_cst_33 val_main_v139 val_main_v137 val_main_v136 val_main_v135 val_main_v134 val_main_v98
  rw [targets_stage3, edgeWeights_stage3, wrappedSources'_stage3, dot_eq_rowsByCols, mul_bcast_eq_scaleRows]
  rfl

/-- The third layer's result: the bias row added, no maximum. -/
theorem layer_stage3 :
    val_main_v143 (F := Ideal) x0 x1 x2 x3 x4 x5 x6 x7
      = addRow (propagate (sourcesWithLoops x7) (targetsWithLoops x7)
          (edgeWeights (sourcesWithLoops x7) (targetsWithLoops x7)) (val_main_v97 (F := Ideal) x0 x1 x2 x3 x4 x7) x5) (biasRow x6) := by
  unfold val_main_v143 val_main_v142 val_main_v141
  rw [propagate_stage3]
  exact add_bcast_eq_addRow _ _

end Stages

/-- The value the reference's last operation writes, as a function of the eight arguments, is the network of them. -/
theorem stage_network (x0 : (⟨Cert.ReferenceIdeal.S100000x128, .f32⟩ : BufTy).Contents (Elt Ideal)) (x1 : (⟨Cert.ReferenceIdeal.S128x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
    (x7 : (⟨Cert.ReferenceIdeal.S2x1600000, .i32⟩ : BufTy).Contents (Elt Ideal)) :
    val_main_v143 (F := Ideal) x0 x1 x2 x3 x4 x5 x6 x7 = network x0 x1 x2 x3 x4 x5 x6 x7 := by
  rw [layer_stage3, layer_stage2, layer_stage1]
  rfl

end Cert.Gcn

end
-- ==== Proof.lean ====
/-
  A three-layer graph convolution over 100000 nodes with 128 features, 1600000 directed edges and one self loop per
  node, against its plain reference, over the extended reals.

  With r the source and c the target of every edge (the given edges followed by the self loops), d the in-degree of
  every node counting its self loop, and the weight d[r]^(-1/2) · d[c]^(-1/2) of every edge, a layer maps node features h
  to  b + Σ_{edges e with c[e] = i} weight[e] · (h · W)[r[e]]  at node i, followed in the first two layers by the maximum
  with zero. The kernel program computes h · W, the scaling by the weights and the bias step in tiled regions (rows in
  blocks of 5000, edges in blocks of 4000) and the gathers and the sums over edges with host operations; the reference
  does everything with host operations. Both are the same whole-array function `Cert.Gcn.network` of the arguments:
  a tiled product is the product, row blocks tile the arrays exactly, a reshape to a column or a row is a broadcast, and
  a factor one changes nothing. The one place where the two programs differ is the row gather: the kernel's fills rows
  whose index is out of range with a fill value, the reference's clamps the index. The precondition says every entry of
  the edge array is a node index, so every index gathered at is in range and the fill is never chosen.
-/
import proofs.«426999_j59536836657839_1_alg».proof.Defs
import proofs.«426999_j59536836657839_1_alg».proof.Proof.Gen.Kernel
import proofs.«426999_j59536836657839_1_alg».proof.Proof.Gen.Kernel.Skeleton
import proofs.«426999_j59536836657839_1_alg».proof.Proof.Gen.Kernel.Launch
import proofs.«426999_j59536836657839_1_alg».proof.Proof.Gen.Kernel.Points
import proofs.«426999_j59536836657839_1_alg».proof.Proof.Gen.Kernel.Frame
import proofs.«426999_j59536836657839_1_alg».proof.Proof.Gen.KernelIdeal
import proofs.«426999_j59536836657839_1_alg».proof.Proof.Gen.KernelIdeal.Skeleton
import proofs.«426999_j59536836657839_1_alg».proof.Proof.Gen.KernelIdeal.Launch
import proofs.«426999_j59536836657839_1_alg».proof.Proof.Gen.KernelIdeal.Points
import proofs.«426999_j59536836657839_1_alg».proof.Proof.Gen.KernelIdeal.Frame
import proofs.«426999_j59536836657839_1_alg».proof.Proof.Gen.ReferenceIdeal
import proofs.«426999_j59536836657839_1_alg».proof.Proof.Gen.Pre_finite_inputs
import proofs.«426999_j59536836657839_1_alg».proof.Proof.KernelRun
import proofs.«426999_j59536836657839_1_alg».proof.Proof.KernelResult
import proofs.«426999_j59536836657839_1_alg».proof.Proof.RefRun
import proofs.«426999_j59536836657839_1_alg».proof.Proof.RefRead
import proofs.«426999_j59536836657839_1_alg».proof.Proof.RefBridge
import Idealize.ShloMosaic.Adequacy
import Idealize.ShloMosaic.Init

noncomputable section

namespace Cert.Proof

open Idealize.ShloMosaic Idealize.SL.Sem

/-- The kernel program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments alone: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments, under the precondition, both programs end with the network of the
    arguments in their result arrays. -/
theorem algebraic : Cert.algebraic_KernelIdeal_ReferenceIdeal := by
  intro m ρ m' ρ' hpre hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Gcn.kernel_result m ρ hpre c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.ReadP.val_main_v143_eq, Cert.Gcn.stage_network, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
